-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x64 : Shape := ⟨2, ![5000, 64]⟩
abbrev S5000x1 : Shape := ⟨2, ![5000, 1]⟩
abbrev S1 : Shape := ⟨1, ![1]⟩
abbrev S1x1 : Shape := ⟨2, ![1, 1]⟩
abbrev S1700000x64 : Shape := ⟨2, ![1700000, 64]⟩
abbrev S1x64 : Shape := ⟨2, ![1, 64]⟩

abbrev nBuf : Space → Nat
  | .hbm => 104
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x64, .f32⟩
  | .hbm, ⟨22, _⟩ => ⟨S_, .i32⟩
  | .hbm, ⟨23, _⟩ => ⟨S1700000, .i32⟩
  | .hbm, ⟨24, _⟩ => ⟨S1700000, .i1⟩
  | .hbm, ⟨25, _⟩ => ⟨S_, .i32⟩
  | .hbm, ⟨26, _⟩ => ⟨S1700000, .i32⟩
  | .hbm, ⟨27, _⟩ => ⟨S1700000, .i32⟩
  | .hbm, ⟨28, _⟩ => ⟨S1700000, .i32⟩
  | .hbm, ⟨29, _⟩ => ⟨S1700000x1, .i32⟩
  | .hbm, ⟨30, _⟩ => ⟨S1, .i32⟩
  | .hbm, ⟨31, _⟩ => ⟨S_, .i32⟩
  | .hbm, ⟨32, _⟩ => ⟨S1700000x1, .i32⟩
  | .hbm, ⟨33, _⟩ => ⟨S1700000x1, .i1⟩
  | .hbm, ⟨34, _⟩ => ⟨S1x1, .i32⟩
  | .hbm, ⟨35, _⟩ => ⟨S1700000x1, .i32⟩
  | .hbm, ⟨36, _⟩ => ⟨S1700000x1, .i1⟩
  | .hbm, ⟨37, _⟩ => ⟨S1700000x1, .i1⟩
  | .hbm, ⟨38, _⟩ => ⟨S_, .i1⟩
  | .hbm, ⟨39, _⟩ => ⟨S1700000, .i1⟩
  | .hbm, ⟨40, _⟩ => ⟨S1700000x64, .f32⟩
  | .hbm, ⟨41, _⟩ => ⟨S1700000x64, .i1⟩
  | .hbm, ⟨42, _⟩ => ⟨S_, .f32⟩
  | .hbm, ⟨43, _⟩ => ⟨S1700000x64, .f32⟩
  | .hbm, ⟨44, _⟩ => ⟨S1700000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1, .i32⟩
  | .hbm, ⟨72, _⟩ => ⟨S_, .i32⟩
  | .hbm, ⟨73, _⟩ => ⟨S1700000x1, .i32⟩
  | .hbm, ⟨74, _⟩ => ⟨S1700000x1, .i1⟩
  | .hbm, ⟨75, _⟩ => ⟨S1x1, .i32⟩
  | .hbm, ⟨76, _⟩ => ⟨S1700000x1, .i32⟩
  | .hbm, ⟨77, _⟩ => ⟨S1700000x1, .i1⟩
  | .hbm, ⟨78, _⟩ => ⟨S1700000x1, .i1⟩
  | .hbm, ⟨79, _⟩ => ⟨S_, .i1⟩
  | .hbm, ⟨80, _⟩ => ⟨S1700000, .i1⟩
  | .hbm, ⟨81, _⟩ => ⟨S1700000x64, .f32⟩
  | .hbm, ⟨82, _⟩ => ⟨S1700000x64, .i1⟩
  | .hbm, ⟨83, _⟩ => ⟨S_, .f32⟩
  | .hbm, ⟨84, _⟩ => ⟨S1700000x64, .f32⟩
  | .hbm, ⟨85, _⟩ => ⟨S1700000x64, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S1700000x1, .f32⟩
  | .hbm, ⟨96, _⟩ => ⟨S1700000x64, .f32⟩
  | .hbm, ⟨97, _⟩ => ⟨S1700000x64, .f32⟩
  | .hbm, ⟨98, _⟩ => ⟨S_, .f32⟩
  | .hbm, ⟨99, _⟩ => ⟨S100000x64, .f32⟩
  | .hbm, ⟨100, _⟩ => ⟨S1700000x1, .i32⟩
  | .hbm, ⟨101, _⟩ => ⟨S100000x64, .f32⟩
  | .hbm, ⟨102, _⟩ => ⟨S1x64, .f32⟩
  | .hbm, ⟨103, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S1x64, .f32⟩
  | .local _ .vmem, ⟨10, _⟩ => ⟨S64x64, .f32⟩
  | .local _ .vmem, ⟨11, _⟩ => ⟨S5000x1, .f32⟩
  | .local _ .vmem, ⟨12, _⟩ => ⟨S5000x1, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v14 : Ref sig .tc := ⟨.hbm, 44, rfl⟩
abbrev main_c : Ref sig .tc := ⟨.hbm, 45, rfl⟩
abbrev main_v15 : Ref sig .tc := ⟨.hbm, 46, rfl⟩
abbrev main_v16 : Ref sig .tc := ⟨.hbm, 47, rfl⟩
abbrev main_c_1 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_call1_c : Ref sig .tc := ⟨.hbm, 63, rfl⟩
abbrev main_call1_v0 : Ref sig .tc := ⟨.hbm, 64, rfl⟩
abbrev main_call1_v1 : Ref sig .tc := ⟨.hbm, 65, rfl⟩
abbrev main_call1_c_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_c_1 : Ref sig .tc := ⟨.hbm, 71, rfl⟩
abbrev main_call1_c_2 : Ref sig .tc := ⟨.hbm, 72, rfl⟩
abbrev main_call1_v6 : Ref sig .tc := ⟨.hbm, 73, rfl⟩
abbrev main_call1_v7 : Ref sig .tc := ⟨.hbm, 74, rfl⟩
abbrev main_call1_v8 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_3 : Ref sig .tc := ⟨.hbm, 79, rfl⟩
abbrev main_call1_v12 : Ref sig .tc := ⟨.hbm, 80, rfl⟩
abbrev main_call1_v13 : Ref sig .tc := ⟨.hbm, 81, rfl⟩
abbrev main_call1_v14 : Ref sig .tc := ⟨.hbm, 82, rfl⟩
abbrev main_call1_cst : Ref sig .tc := ⟨.hbm, 83, rfl⟩
abbrev main_call1_v15 : Ref sig .tc := ⟨.hbm, 84, rfl⟩
abbrev main_v30 : Ref sig .tc := ⟨.hbm, 85, rfl⟩
abbrev main_c_3 : Ref sig .tc := ⟨.hbm, 86, rfl⟩
abbrev main_v31 : Ref sig .tc := ⟨.hbm, 87, rfl⟩
abbrev main_v32 : Ref sig .tc := ⟨.hbm, 88, rfl⟩
abbrev main_c_4 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_5 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  gather_S100000_S1700000x1_S1700000_n_0_n_n_0_1_1_wf : GatherDims.WF S100000 S1700000x1 S1700000 [] [0] [] [0] [] 1 ![1]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x1, .f32⟩
  | .hbm, ⟨73, _⟩ => ⟨S1700000x64, .f32⟩
  | .hbm, ⟨74, _⟩ => ⟨S1700000x64, .f32⟩
  | .hbm, ⟨75, _⟩ => ⟨S_, .f32⟩
  | .hbm, ⟨76, _⟩ => ⟨S100000x64, .f32⟩
  | .hbm, ⟨77, _⟩ => ⟨S1700000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The mathematics of the two-layer graph convolution, stated once over the extended reals and imported by every
  other module: the index constructors, the three dense stages the kernels compute, and the clamp a host gather
  applies to a start index.

  A node feature matrix is [100000, 64]; a weight matrix [64, 64]; a bias a [1, 64] row; the per-node scale
  (the inverse square root of the degree) a [100000, 1] column.
  * `scaledMatmul x w d` at (n, j) is (∑ k, x (n, k) · w (k, j)) · d (n, 0): a dense layer whose row n is scaled by d n.
  * `biasRelu a b` at (n, j) is max (a (n, j) + b (0, j)) 0.
  * `biasAdd a b` at (n, j) is a (n, j) + b (0, j).
-/
import Idealize.ShloMosaic.PureOps.Ideal
import Idealize.ShloMosaic.PureOps.Ideal.Laws
import Idealize.ShloMosaic.Lib.ValueIdx

noncomputable section

namespace Cert.Spec

open Idealize.ShloMosaic

/-- Node features: one row per node, 64 columns. -/
abbrev SN64 : Shape := ⟨2, ![100000, 64]⟩
/-- One value per node, kept as a column. -/
abbrev SN1 : Shape := ⟨2, ![100000, 1]⟩
/-- One value per node. -/
abbrev SN : Shape := ⟨1, ![100000]⟩
/-- A weight matrix. -/
abbrev SW : Shape := ⟨2, ![64, 64]⟩
/-- A bias, kept as a row. -/
abbrev SB : Shape := ⟨2, ![1, 64]⟩
/-- One value per edge (the 1600000 given edges, then one self loop per node). -/
abbrev SM : Shape := ⟨1, ![1700000]⟩
/-- One value per edge, kept as a column (the form a start-index table takes). -/
abbrev SM1 : Shape := ⟨2, ![1700000, 1]⟩
/-- One row of 64 per edge: the messages. -/
abbrev SM64 : Shape := ⟨2, ![1700000, 64]⟩

/-- Entry (row of `o`, k) of a feature matrix: what the sum over `k` reads on the left. -/
abbrev rowK (o : SN64.Idx) (k : Fin 64) : SN64.Idx := fun a => match a with
  | ⟨0, _⟩ => ⟨(o 0).val, (o 0).isLt⟩
  | ⟨1, _⟩ => ⟨k.val, k.isLt⟩

/-- Entry (k, column of `o`) of a weight matrix: what the sum over `k` reads on the right. -/
abbrev kCol (o : SN64.Idx) (k : Fin 64) : SW.Idx := fun a => match a with
  | ⟨0, _⟩ => ⟨k.val, k.isLt⟩
  | ⟨1, _⟩ => ⟨(o 1).val, (o 1).isLt⟩

/-- Entry (row of `o`, 0) of a per-node column. -/
abbrev rowCol0 (o : SN64.Idx) : SN1.Idx := fun a => match a with
  | ⟨0, _⟩ => ⟨(o 0).val, (o 0).isLt⟩
  | ⟨1, _⟩ => ⟨0, Nat.one_pos⟩

/-- Entry (0, column of `o`) of a bias row. -/
abbrev biasAt (o : SN64.Idx) : SB.Idx := fun a => match a with
  | ⟨0, _⟩ => ⟨0, Nat.one_pos⟩
  | ⟨1, _⟩ => ⟨(o 1).val, (o 1).isLt⟩

/-- The row a host gather reads for a start index `w`: the word read signed, and clamped into [0, 99999]. -/
def clampRow (w : BitVec 32) : Fin 100000 := ⟨min w.toInt.toNat 99999, by omega⟩

/-- A dense layer with its rows scaled: (x · w) (n, j) · d (n, 0). -/
def scaledMatmul (x : SN64.Idx → EReal) (w : SW.Idx → EReal) (d : SN1.Idx → EReal) : SN64.Idx → EReal :=
  fun o => (∑ k : Fin 64, x (rowK o k) * w (kCol o k)) * d (rowCol0 o)

/-- Bias, then the positive part. -/
def biasRelu (a : SN64.Idx → EReal) (b : SB.Idx → EReal) : SN64.Idx → EReal :=
  fun o => max (a o + b (biasAt o)) 0

/-- Bias alone. -/
def biasAdd (a : SN64.Idx → EReal) (b : SB.Idx → EReal) : SN64.Idx → EReal :=
  fun o => a o + b (biasAt o)

theorem scaledMatmul_apply (x : SN64.Idx → EReal) (w : SW.Idx → EReal) (d : SN1.Idx → EReal) (o : SN64.Idx) :
    scaledMatmul x w d o = (∑ k : Fin 64, x (rowK o k) * w (kCol o k)) * d (rowCol0 o) := rfl

theorem biasRelu_apply (a : SN64.Idx → EReal) (b : SB.Idx → EReal) (o : SN64.Idx) :
    biasRelu a b o = max (a o + b (biasAt o)) 0 := rfl

theorem biasAdd_apply (a : SN64.Idx → EReal) (b : SB.Idx → EReal) (o : SN64.Idx) :
    biasAdd a b o = a o + b (biasAt o) := rfl

end Cert.Spec

end
-- ==== Proof.KOps.lean ====
/-
  The host side of the kernel program, named: the edge lists with their self loops, the wrap of a negative index,
  the in-range mask and the masked row gather that `jnp.take` lowers to, and one aggregation step
  (gather rows by source, scale by the destination's factor, add up by destination).
  The edge lists, the degree and its inverse square root are the same operations of the edge table in both
  programs; they are named here by the reference's stages.
-/
import proofs.«429814_j67362267070571_3_alg».proof.Proof.Gen.KernelIdeal
import proofs.«429814_j67362267070571_3_alg».proof.Proof.Gen.ReferenceIdeal.Read
import proofs.«429814_j67362267070571_3_alg».proof.Proof.Spec
import Idealize.ShloMosaic.PureOps.Ideal

noncomputable section

namespace Cert.KernelIdeal.KOps

open Cert.KernelIdeal Idealize.ShloMosaic
open Cert.KernelIdeal.Facts₀

/-- The source node of every edge: the given sources, then each node once (the self loops). -/
abbrev srcOf (ei : IVec S2x1600000 32) : IVec S1700000 32 := Cert.ReferenceIdeal.Read.val_main_v3 (F := Ideal) ei
/-- The destination node of every edge: the given destinations, then each node once. -/
abbrev dstOf (ei : IVec S2x1600000 32) : IVec S1700000 32 := Cert.ReferenceIdeal.Read.val_main_v6 (F := Ideal) ei
/-- Per node, the inverse square root of its in-degree (self loop included). -/
abbrev dinvOf (ei : IVec S2x1600000 32) : FVec Ideal S100000 .f32 := Cert.ReferenceIdeal.Read.val_main_v11 (F := Ideal) ei
/-- The same kept as a column. -/
def dcolOf (ei : IVec S2x1600000 32) : FVec Ideal S100000x1 .f32 :=
  shapeCast S100000x1 (dinvOf ei) shapeCasts_S100000_S100000x1

/-- A negative index counts from the end: v + 100000 where v < 0, else v. -/
def wrapK (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- An index vector as the [1700000, 1] table of start indices a gather or scatter takes. -/
def colK (v : IVec S1700000 32) : IVec S1700000x1 32 := broadcastInDim S1700000x1 ![0] bcast_S1700000_S1700000x1_0 v

/-- Per edge and column: is the start index inside [0, 99999]? -/
def maskK (col : IVec S1700000x1 32) : IVec S1700000x64 1 :=
  broadcastInDim S1700000x64 ![0] bcast_S1700000_S1700000x64_0
    (Host.reduce IntOp.andi
      (andi (cmpi .sge col (broadcastInDim S1700000x1 ![] bcast_S_S1700000x1 (constantI S_ 32 0#32)))
        (cmpi .sle col (broadcastInDim S1700000x1 ![0, 1] bcast_S1x1_S1700000x1_0_1
          (broadcastInDim S1x1 ![1] bcast_S1_S1x1_1 (constantI S1 32 99999#32)))))
      (constantI S_ 1 1#1) reducesTo_S1700000x1_S1700000_d1 h_S_)

/-- Rows of `H` by (wrapped) index, a not-a-number row where the index is out of range. -/
def takeK (H : FVec Ideal S100000x64 .f32) (v : IVec S1700000 32) : FVec Ideal S1700000x64 .f32 :=
  select (maskK (colK (wrapK v)))
    (Host.gather gather_S100000x64_S1700000x1_S1700000x64_1_0_n_n_0_1_164 H (colK (wrapK v)))
    (broadcastInDim S1700000x64 ![] bcast_S_S1700000x64 (constant S_ .f32 0x7FC00000#32))

/-- The destination's factor of every edge, laid along the 64 columns: `dinv` at the (wrapped, clamped) destination. -/
def dstScaleOf (dst : IVec S1700000 32) (dinv : FVec Ideal S100000 .f32) : FVec Ideal S1700000x64 .f32 :=
  broadcastInDim S1700000x64 ![0, 1] bcast_S1700000x1_S1700000x64_0_1
    (broadcastInDim S1700000x1 ![0] bcast_S1700000_S1700000x1_0
      (Host.gather gather_S100000_S1700000x1_S1700000_n_0_n_n_0_1_1 dinv (colK (wrapK dst))))

/-- Messages added up by destination: a node's result is the sum, over the edges that end there, of the edge's
    row of `T` times its destination's factor. -/
def aggOf (dst : IVec S1700000 32) (dinv : FVec Ideal S100000 .f32) (T : FVec Ideal S1700000x64 .f32) :
    FVec Ideal S100000x64 .f32 :=
  Host.scatterAdd scatter_S100000x64_S1700000x1_S1700000x64_1_0_0_1
    (broadcastInDim S100000x64 ![] bcast_S_S100000x64 (constant S_ .f32 0x00000000#32))
    (colK dst)
    (mulf T (dstScaleOf dst dinv))

/-- One aggregation step: the message of an edge is its source's row of `H` times its destination's factor;
    a node's result is the sum of the messages of the edges that end there. -/
def aggK (ei : IVec S2x1600000 32) (H : FVec Ideal S100000x64 .f32) : FVec Ideal S100000x64 .f32 :=
  aggOf (dstOf ei) (dinvOf ei) (takeK H (srcOf ei))

/-- A bias as the [1, 64] row a kernel window takes. -/
def rowOf (b : FVec Ideal S64 .f32) : FVec Ideal S1x64 .f32 := shapeCast S1x64 b shapeCasts_S64_S1x64

end Cert.KernelIdeal.KOps

end
-- ==== Proof.Reg0Value.lean ====
/- The first dense stage read off its 20 blocks: after the pipeline has run, its output array is the scaled matrix
   product of the three arrays it reads, index by index. -/
import proofs.«429814_j67362267070571_3_alg».proof.Proof.Gen.KernelIdeal.Frame
import proofs.«429814_j67362267070571_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0
open Cert.KernelIdeal Cert.KernelIdeal.Gen
open Idealize.ShloMosaic Idealize.ShloMosaic.TcCoe Idealize.SL.Sem
open Idealize.ShloMosaic.Pipeline (Dat Cfg Window)

/-- The zero offsets of a whole-buffer access. -/
private theorem zero_offsets : (![0, 0] : Fin 2 → Nat) = fun _ => 0 := funext fun a => by fin_cases a <;> rfl

/-! ## The block's matrix product at an index

The contraction pairs axis 1 of the left block with axis 0 of the right one; the left block keeps the output's row,
the right block the output's column. -/

private theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix product into the zero accumulator at (p, q): the sum over k of entry (p, k) of the left block times
    entry (k, q) of the right one. -/
private theorem matmul_at {φ₁ φ₂ : FTy} (a : FVec Ideal S5000x64 φ₁) (b : FVec Ideal S64x64 φ₂) (p : Fin 5000) (q : Fin 64) :
    matmul dot_S5000x64_S64x64_S5000x64_1_0_0_1_n_n none a b (constant (F := Ideal) S5000x64 .f32 0x00000000#32) (ValueIdx.ix2 p q)
      = ∑ k : Fin 64, a (ValueIdx.ix2 p k) * b (ValueIdx.ix2 k q) := by
  show FloatOps.matmul dot_S5000x64_S64x64_S5000x64_1_0_0_1_n_n none a b (constant (F := Ideal) S5000x64 .f32 0x00000000#32) (ValueIdx.ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ValueIdx.ix2 p q) ((ValueIdx.contrEquiv1 dot_S5000x64_S64x64_S5000x64_1_0_0_1_n_n 64 rfl rfl).symm k) = ValueIdx.ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ValueIdx.ix2 p q) ((ValueIdx.contrEquiv1 dot_S5000x64_S64x64_S5000x64_1_0_0_1_n_n 64 rfl rfl).symm k) = ValueIdx.ix2 k q := funext fun a => Fin.ext (by
    match a with
    | ⟨0, _⟩ => exact (rhs_axis0 _ _).trans hk
    | ⟨1, _⟩ => exact rhs_axis1 _ _)
  rw [el, er]

/-- A per-row column broadcast over the 64 columns reads, at (p, q), the column's entry p. -/
private theorem column_broadcast_at {α : Type} (v : S5000x1.Idx → α) (h : S5000x1.Broadcasts S5000x64) (p : Fin 5000) (q : Fin 64) :
    broadcastTo S5000x64 v h (ValueIdx.ix2 p q) = v (ValueIdx.ix2 p (0 : Fin 1)) := by
  refine broadcastTo_apply v h (ValueIdx.ix2 p q) (ValueIdx.ix2 p (0 : Fin 1)) fun ax => ?_
  match ax with
  | ⟨0, _⟩ =>
    show p.val = if (5000 : Nat) = 1 then 0 else p.val
    rw [if_neg (by decide)]
  | ⟨1, _⟩ => rfl

/-- The body's payload at (p, q): row p of the feature block times column q of the weights, scaled by the row's scale.
    Rounding the operands to bf16 is the identity on the extended reals. -/
private theorem payload_at (x0 : Vec Ideal S5000x64 .f32) (x1 : Vec Ideal S64x64 .f32) (x2 : Vec Ideal S5000x1 .f32)
    (p : Fin 5000) (q : Fin 64) :
    k0_pay1 (F := Ideal) x0 x1 x2 (ValueIdx.ix2 p q)
      = (∑ k : Fin 64, x0 (ValueIdx.ix2 p k) * x1 (ValueIdx.ix2 k q)) * x2 (ValueIdx.ix2 p (0 : Fin 1)) := by
  unfold k0_pay1
  rw [ValueIdx.mulf_apply, matmul_at, shapeCast_self, column_broadcast_at]
  rfl

/-- The payload at (p, q) is the specification at an index `o` of the whole array, once the block entries it reads
    are the whole arrays' entries the specification reads at `o`. -/
private theorem payload_eq_spec (x0 : Vec Ideal S5000x64 .f32) (x1 : Vec Ideal S64x64 .f32) (x2 : Vec Ideal S5000x1 .f32)
    (A : Cert.Spec.SN64.Idx → EReal) (W : Cert.Spec.SW.Idx → EReal) (D : Cert.Spec.SN1.Idx → EReal)
    (p : Fin 5000) (q : Fin 64) (o : Cert.Spec.SN64.Idx)
    (hx : ∀ k : Fin 64, x0 (ValueIdx.ix2 p k) = A (Cert.Spec.rowK o k))
    (hw : ∀ k : Fin 64, x1 (ValueIdx.ix2 k q) = W (Cert.Spec.kCol o k))
    (hd : x2 (ValueIdx.ix2 p (0 : Fin 1)) = D (Cert.Spec.rowCol0 o)) :
    k0_pay1 (F := Ideal) x0 x1 x2 (ValueIdx.ix2 p q) = Cert.Spec.scaledMatmul A W D o := by
  rw [payload_at, Cert.Spec.scaledMatmul_apply, hd]
  exact congrArg (· * _) (Finset.sum_congr rfl fun k _ => by rw [hx k, hw k])

/-! ## From the blocks to the array -/

/-- The index maps over the grid: at point t the feature, scale and output windows sit at block (t, 0), the weight
    window at block (0, 0). -/
private theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the specification applied to the arrays the region finds. -/
private theorem flushed_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Spec.scaledMatmul (V c main_arg0) (V c main_arg2) (V c main_v12)) := by
  show (cfg0.win 3).cut (grid0.coords t) ((dat0 (F := Ideal) V c).after 3 t) = _
  rw [after0_3]
  unfold out0_3
  rw [View.canon_unit_zero zero_offsets]
  simp only [View.ld_unit_zero (S := S5000x64) zero_offsets, View.ld_unit_zero (S := S64x64) zero_offsets, View.ld_unit_zero (S := S5000x1) zero_offsets]
  obtain ⟨e00, e01, e10, e11, e20, e21, e30, e31⟩ := index_facts t
  funext j
  obtain ⟨p, q, rfl⟩ : ∃ (p : Fin 5000) (q : Fin 64), j = ValueIdx.ix2 p q := ⟨j 0, j 1, ValueIdx.eq_ix2 j⟩
  show k0_pay1 (F := Ideal) (iblk0 V c 0 t) (iblk0 V c 1 t) (iblk0 V c 2 t) (ValueIdx.ix2 p q)
    = Cert.Spec.scaledMatmul (V c main_arg0) (V c main_arg2) (V c main_v12) (((cfg0.win 3).blk t).view.emb (ValueIdx.ix2 p q))
  refine payload_eq_spec _ _ _ _ _ _ p q _ (fun k => ?_) (fun k => ?_) ?_
  · show V c main_arg0 (((cfg0.win 0).blk t).view.emb (ValueIdx.ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  · show V c main_arg2 (((cfg0.win 1).blk t).view.emb (ValueIdx.ix2 k q)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  · show V c main_v12 (((cfg0.win 2).blk t).view.emb (ValueIdx.ix2 p (0 : Fin 1))) = _
    refine congrArg (V c main_v12) (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-- An index of the output array is in point t's block iff each coordinate is in the block's range on its axis. -/
private theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v13).slice (win0_3.rect t)).set ↔ _
  rw [View.set_slice_whole, Rect.mem_set_unit]
  exact Iff.rfl

/-- Every row r of the output lies in the block of point r / 5000, and every point writes back. -/
private theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  have ht : t.val = (i 0).val / 5000 := rfl
  obtain ⟨-, -, -, -, -, -, e30, e31⟩ := index_facts t
  refine ⟨t, flush0_3 t, ?_⟩
  rw [mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The array the first pallas_call leaves: (x · w) (n, j) · d (n, 0) of the arrays the region finds. -/
theorem value (V : (c : Dev nD) → (b : Ref sig .tc) → Buf (Elt Ideal) ((c : Thread nD τ).loc b)) (c : Dev nD) :
    (dat0 (F := Ideal) V c).arrAt 3 cfg0.N = Cert.Spec.scaledMatmul (V c main_arg0) (V c main_arg2) (V c main_v12) :=
  (dat0 (F := Ideal) V c).arrAt_eq_of_cover 3 (Cert.Spec.scaledMatmul (V c main_arg0) (V c main_arg2) (V c main_v12))
    (fun t _ => flushed_eq V c t) covered

end Cert.KernelIdeal.Reg0

end
-- ==== Proof.Reg1Value.lean ====
/- The second dense stage read off its 20 blocks: bias and positive part of the aggregated features, then the scaled
   matrix product, index by index. -/
import proofs.«429814_j67362267070571_3_alg».proof.Proof.Gen.KernelIdeal.Frame
import proofs.«429814_j67362267070571_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1
open Cert.KernelIdeal Cert.KernelIdeal.Gen
open Idealize.ShloMosaic Idealize.ShloMosaic.TcCoe Idealize.SL.Sem
open Idealize.ShloMosaic.Pipeline (Dat Cfg Window)

/-! ## The matrix product of one block at an index -/

/-- The left operand's row coordinate is the output's row. -/
private theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the summation index. -/
private theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the summation index. -/
private theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the output's column. -/
private theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000, 64] by [64, 64] product accumulated into zero, at (p, q): the sum over k of a (p, k) · b (k, q). -/
private theorem blockProduct_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ValueIdx.ix2 p q)
      = ∑ k : Fin 64, a (ValueIdx.ix2 p k) * b (ValueIdx.ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ValueIdx.ix2 p q) ((ValueIdx.contrEquiv1 dot_S5000x64_S64x64_S5000x64_1_0_0_1_n_n 64 rfl rfl).symm k) = ValueIdx.ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ValueIdx.ix2 p q) ((ValueIdx.contrEquiv1 dot_S5000x64_S64x64_S5000x64_1_0_0_1_n_n 64 rfl rfl).symm k) = ValueIdx.ix2 k q := funext fun a => Fin.ext (by
    match a with
    | ⟨0, _⟩ => exact (rhs_dot_0 _ _).trans hk
    | ⟨1, _⟩ => exact rhs_dot_1 _ _)
  rw [el, er]

/-! ## The layout operations of one block at an index -/

/-- A [5000, 1] column broadcast along the 64 columns reads, at (p, q), the column's entry p. -/
private theorem columnBroadcast_apply (v : (⟨2, ![5000, 1]⟩ : Shape).Idx → EReal) (h : (⟨2, ![5000, 1]⟩ : Shape).Broadcasts ⟨2, ![5000, 64]⟩)
    (p : Fin 5000) (q : Fin 64) : broadcastTo ⟨2, ![5000, 64]⟩ v h (ValueIdx.ix2 p q) = v (ValueIdx.ix2 p (0 : Fin 1)) := by
  refine broadcastTo_apply v h (ValueIdx.ix2 p q) (ValueIdx.ix2 p (0 : Fin 1)) fun ax => ?_
  match ax with
  | ⟨0, _⟩ =>
    show p.val = if (5000 : Nat) = 1 then 0 else p.val
    rw [if_neg (by decide)]
  | ⟨1, _⟩ => rfl

/-! ## The body's payload at an index -/

/-- What one grid point computes at (p, q) of its block: the sum over k of max (x0 (p, k) + x1 (0, k)) 0 · x2 (k, q),
    times x3 (p, 0). -/
private theorem payload_apply (x0 : Vec Ideal S5000x64 .f32) (x1 : Vec Ideal S1x64 .f32) (x2 : Vec Ideal S64x64 .f32) (x3 : Vec Ideal S5000x1 .f32)
    (p : Fin 5000) (q : Fin 64) :
    k1_pay1 (F := Ideal) x0 x1 x2 x3 (ValueIdx.ix2 p q)
      = (∑ k : Fin 64, max (x0 (ValueIdx.ix2 p k) + x1 (ValueIdx.ix2 (0 : Fin 1) k)) 0 * x2 (ValueIdx.ix2 k q)) * x3 (ValueIdx.ix2 p (0 : Fin 1)) := by
  unfold k1_pay1
  simp only [shapeCast_self]
  rw [ValueIdx.mulf_apply, blockProduct_apply, columnBroadcast_apply]
  refine congrArg (fun s : EReal => s * x3 (ValueIdx.ix2 p (0 : Fin 1))) (Finset.sum_congr rfl fun k _ => ?_)
  rw [ValueIdx.truncf_apply, ValueIdx.truncf_apply, ValueIdx.maximumf_apply, ValueIdx.addf_apply, ValueIdx.broadcast_apply,
    ValueIdx.broadcastTo_1b_ab_apply]
  show max _ (Ideal.ofBits .f32 0x00000000#32) * _ = _
  rw [Ideal.ofBits_zero_f32]

/-- One entry of a block against the array's function: when the four blocks hold, along row p and column q, what the
    arrays a, b, w, d hold along the row and column of the array index i, the payload at (p, q) is the scaled product
    of max (a + b) 0 with w at i. -/
private theorem payload_eq_spec (x0 : Vec Ideal S5000x64 .f32) (x1 : Vec Ideal S1x64 .f32) (x2 : Vec Ideal S64x64 .f32) (x3 : Vec Ideal S5000x1 .f32)
    (A : Cert.Spec.SN64.Idx → EReal) (B : Cert.Spec.SB.Idx → EReal) (W : Cert.Spec.SW.Idx → EReal) (Dg : Cert.Spec.SN1.Idx → EReal)
    (p : Fin 5000) (q : Fin 64) (i : Cert.Spec.SN64.Idx)
    (h0 : ∀ k : Fin 64, x0 (ValueIdx.ix2 p k) = A (Cert.Spec.rowK i k))
    (h1 : ∀ k : Fin 64, x1 (ValueIdx.ix2 (0 : Fin 1) k) = B (Cert.Spec.biasAt (Cert.Spec.rowK i k)))
    (h2 : ∀ k : Fin 64, x2 (ValueIdx.ix2 k q) = W (Cert.Spec.kCol i k))
    (h3 : x3 (ValueIdx.ix2 p (0 : Fin 1)) = Dg (Cert.Spec.rowCol0 i)) :
    k1_pay1 (F := Ideal) x0 x1 x2 x3 (ValueIdx.ix2 p q) = Cert.Spec.scaledMatmul (Cert.Spec.biasRelu A B) W Dg i := by
  rw [payload_apply, Cert.Spec.scaledMatmul_apply, h3]
  refine congrArg (fun s : EReal => s * Dg (Cert.Spec.rowCol0 i)) (Finset.sum_congr rfl fun k _ => ?_)
  rw [Cert.Spec.biasRelu_apply, h0, h1, h2]

/-! ## From the 20 blocks to the array -/

private theorem zeroOffsets : (![0, 0] : Fin 2 → Nat) = fun _ => 0 := funext fun a => by fin_cases a <;> rfl

/-- The block index maps over the 20 grid points: the feature, scale and output windows are at block (t, 0), the
    bias and weight windows at block (0, 0). -/
private theorem blockIndex_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What grid point t writes back is block t of the array's function: rows 5000 t … 5000 t + 4999, all 64 columns. -/
private theorem flushed_eq (V : (c : Dev nD) → (b : Ref sig .tc) → Buf (Elt Ideal) ((c : Thread nD τ).loc b)) (c : Dev nD) (t : Fin cfg1.N) :
    (dat1 (F := Ideal) V c).flushed 4 t = ((cfg1.win 4).blk t).view.read (Elt Ideal)
      (Cert.Spec.scaledMatmul (Cert.Spec.biasRelu (V c main_v27) (V c main_v28)) (V c main_arg4) (V c main_v12)) := by
  show (cfg1.win 4).cut (grid1.coords t) ((dat1 V c).after 4 t) = _
  rw [after1_4]
  unfold out1_4
  rw [View.canon_unit_zero zeroOffsets]
  simp only [View.ld_unit_zero (S := S5000x64) zeroOffsets, View.ld_unit_zero (S := S1x64) zeroOffsets,
    View.ld_unit_zero (S := S64x64) zeroOffsets, View.ld_unit_zero (S := S5000x1) zeroOffsets]
  obtain ⟨e00, e01, e10, e11, e20, e21, e30, e31, e40, e41⟩ := blockIndex_facts t
  funext j
  obtain ⟨p, q, rfl⟩ : ∃ (p : Fin 5000) (q : Fin 64), j = ValueIdx.ix2 p q := ⟨j 0, j 1, ValueIdx.eq_ix2 j⟩
  show k1_pay1 (F := Ideal) (iblk1 V c 0 t) (iblk1 V c 1 t) (iblk1 V c 2 t) (iblk1 V c 3 t) (ValueIdx.ix2 p q)
    = Cert.Spec.scaledMatmul (Cert.Spec.biasRelu (V c main_v27) (V c main_v28)) (V c main_arg4) (V c main_v12) (((cfg1.win 4).blk t).view.emb (ValueIdx.ix2 p q))
  refine payload_eq_spec _ _ _ _ _ _ _ _ p q _ (fun k => ?_) (fun k => ?_) (fun k => ?_) ?_
  · show V c main_v27 (((cfg1.win 0).blk t).view.emb (ValueIdx.ix2 p k))
      = V c main_v27 (Cert.Spec.rowK (((cfg1.win 4).blk t).view.emb (ValueIdx.ix2 p q)) k)
    refine congrArg (V c main_v27) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * k.val = k.val; omega
  · show V c main_v28 (((cfg1.win 1).blk t).view.emb (ValueIdx.ix2 (0 : Fin 1) k))
      = V c main_v28 (Cert.Spec.biasAt (Cert.Spec.rowK (((cfg1.win 4).blk t).view.emb (ValueIdx.ix2 p q)) k))
    refine congrArg (V c main_v28) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c main_arg4 (((cfg1.win 2).blk t).view.emb (ValueIdx.ix2 k q))
      = V c main_arg4 (Cert.Spec.kCol (((cfg1.win 4).blk t).view.emb (ValueIdx.ix2 p q)) k)
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 64 + 1 * q.val = win1_4.index t (1 : Fin 2) * 64 + 1 * q.val; omega
  · show V c main_v12 (((cfg1.win 3).blk t).view.emb (ValueIdx.ix2 p (0 : Fin 1)))
      = V c main_v12 (Cert.Spec.rowCol0 (((cfg1.win 4).blk t).view.emb (ValueIdx.ix2 p q)))
    refine congrArg (V c main_v12) (funext fun a => Fin.ext ?_)
    match a with
    | ⟨0, _⟩ => show win1_3.index t (0 : Fin 2) * 5000 + 1 * p.val = win1_4.index t (0 : Fin 2) * 5000 + 1 * p.val; omega
    | ⟨1, _⟩ => show win1_3.index t (1 : Fin 2) * 1 + 1 * 0 = 0; omega

/-- An index of the array is in grid point t's block iff each coordinate is in the block's range on its axis. -/
private theorem mem_block (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v29).slice (win1_4.rect t)).set ↔ _
  rw [View.set_slice_whole, Rect.mem_set_unit]
  exact Iff.rfl

/-- Row r of the array is in the block of grid point r / 5000, and every grid point writes back. -/
private theorem covered (i : S100000x64.Idx) :
    ∃ t : Fin cfg1.N, (cfg1.win 4).flush t = true ∧ i ∈ ((cfg1.win 4).blk t).view.set := by
  have h0 : (i 0).val < 100000 := ValueIdx.idx2_lt0 i
  have h1 : (i 1).val < 64 := ValueIdx.idx2_lt1 i
  have hN : cfg1.N = 20 := N_1
  obtain ⟨tt, htt⟩ : ∃ tt : Fin cfg1.N, tt.val = (i 0).val / 5000 := ⟨⟨(i 0).val / 5000, by omega⟩, rfl⟩
  obtain ⟨-, -, -, -, -, -, -, -, e40, e41⟩ := blockIndex_facts tt
  refine ⟨tt, flush1_4 tt, ?_⟩
  rw [mem_block]
  intro a
  match a with
  | ⟨0, _⟩ => show win1_4.index tt (0 : Fin 2) * 5000 ≤ (i 0).val ∧ (i 0).val < win1_4.index tt (0 : Fin 2) * 5000 + 5000; omega
  | ⟨1, _⟩ => show win1_4.index tt (1 : Fin 2) * 64 ≤ (i 1).val ∧ (i 1).val < win1_4.index tt (1 : Fin 2) * 64 + 64; omega

/-- The array the second pallas_call leaves: the scaled matrix product of max (a + b) 0 with w. -/
theorem value (V : (c : Dev nD) → (b : Ref sig .tc) → Buf (Elt Ideal) ((c : Thread nD τ).loc b)) (c : Dev nD) :
    (dat1 (F := Ideal) V c).arrAt 4 cfg1.N
      = Cert.Spec.scaledMatmul (Cert.Spec.biasRelu (V c main_v27) (V c main_v28)) (V c main_arg4) (V c main_v12) :=
  (dat1 (F := Ideal) V c).arrAt_eq_of_cover 4 _ (fun t _ => flushed_eq V c t) covered

end Cert.KernelIdeal.Reg1

end
-- ==== Proof.Reg2Value.lean ====
/- The last stage read off its 20 blocks: the aggregated features plus the bias row, index by index. -/
import proofs.«429814_j67362267070571_3_alg».proof.Proof.Gen.KernelIdeal.Frame
import proofs.«429814_j67362267070571_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2
open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- The body's load and store rectangles start at the origin. -/
private theorem zeroOffsets : (![0, 0] : Fin 2 → Nat) = fun _ => 0 := funext fun a => by fin_cases a <;> rfl

/-- The block indices over the 20 grid points: point t reads rows block t of the features and writes rows block t of
    the result (column block 0 on both); the bias row is block (0, 0) at every point. -/
private theorem blockIndices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's arithmetic at entry (p, q) of a block: the feature block's entry plus the bias row's entry q
    (the [1, 64] row is broadcast down the 5000 rows, then added pointwise). -/
private theorem payload_apply (x0 : Vec Ideal S5000x64 .f32) (x1 : Vec Ideal S1x64 .f32) (p : Fin 5000) (q : Fin 64) :
    k2_pay1 x0 x1 (ix2 p q) = x0 (ix2 p q) + x1 (ix2 (0 : Fin 1) q) := by
  unfold k2_pay1
  simp only [shapeCast_self]
  rw [addf_apply, broadcastTo_1b_ab_apply]

/-- A sum of two reads depends only on where the two arrays are read. -/
private theorem add_reads (G0 : Cert.Spec.SN64.Idx → EReal) (G1 : Cert.Spec.SB.Idx → EReal) {a a' : Cert.Spec.SN64.Idx}
    {b b' : Cert.Spec.SB.Idx} (ha : a = a') (hb : b = b') : G0 a + G1 b = G0 a' + G1 b' := by rw [ha, hb]

/-- What point t writes back is rows 5000·t … 5000·t + 4999 of a (n, j) + b (0, j): entry (p, q) of the feature block
    at t is a (5000·t + p, q), which is where entry (p, q) of the result block sits, and entry (0, q) of the bias block
    is b (0, q), the bias entry of that position's column. -/
private theorem flushed_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.Spec.biasAdd (V c main_v43) (V c main_v44)) := by
  show (cfg2.win 2).cut (grid2.coords t) ((dat2 (F := Ideal) V c).after 2 t) = _
  rw [after2_2]
  unfold out2_2
  rw [View.canon_unit_zero zeroOffsets]
  simp only [View.ld_unit_zero (S := S5000x64) zeroOffsets, View.ld_unit_zero (S := S1x64) zeroOffsets]
  obtain ⟨e0, e1, e2, e3, e4, e5⟩ := blockIndices t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = Cert.Spec.biasAdd (V c main_v43) (V c main_v44) (((cfg2.win 2).blk t).view.emb (ix2 p q))
  refine (payload_apply _ _ p q).trans ?_
  rw [Cert.Spec.biasAdd_apply]
  -- the feature block and the result block sit at the same rows and columns of their arrays
  have h0 : ((cfg2.win 0).blk t).view.emb (ix2 p q) = ((cfg2.win 2).blk t).view.emb (ix2 p q) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * q.val = win2_2.index t (1 : Fin 2) * 64 + 1 * q.val; omega
  -- the bias block is the whole row: its entry (0, q) is the bias at row 0 and the result entry's column
  have h1 : ((cfg2.win 1).blk t).view.emb (ix2 (0 : Fin 1) q) = Cert.Spec.biasAt (((cfg2.win 2).blk t).view.emb (ix2 p q)) := by
    funext a; apply Fin.ext
    match a with
    | ⟨0, _⟩ => show win2_1.index t (0 : Fin 2) * 1 + 1 * 0 = 0; omega
    | ⟨1, _⟩ => show win2_1.index t (1 : Fin 2) * 64 + 1 * q.val = win2_2.index t (1 : Fin 2) * 64 + 1 * q.val; omega
  exact add_reads (V c main_v43) (V c main_v44) h0 h1

/-- A position of the result is in point t's block iff, on each axis, its coordinate lies in the block's range. -/
private theorem mem_block (t : Fin cfg2.N) (i : S100000x64.Idx) :
    i ∈ ((cfg2.win 2).blk t).view.set
      ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- The 20 blocks of 5000 rows tile the 100000 rows: row r is in the block of point r / 5000, all 64 columns with it. -/
private theorem covered (i : S100000x64.Idx) :
    ∃ t : Fin cfg2.N, (cfg2.win 2).flush t = true ∧ i ∈ ((cfg2.win 2).blk t).view.set := by
  have hN : grid2.N = 20 := N_2
  have hi0 : (i 0).val < 100000 := (i 0).isLt
  have hi1 : (i 1).val < 64 := (i 1).isLt
  have ht : (i 0).val / 5000 < cfg2.N := by show (i 0).val / 5000 < grid2.N; omega
  obtain ⟨-, -, -, -, e4, e5⟩ := blockIndices ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 64 ≤ (i 1).val
      ∧ (i 1).val < win2_2.index ⟨(i 0).val / 5000, ht⟩ (1 : Fin 2) * 64 + 64
    rw [e5]; omega

/-- The array the third pallas_call leaves: a (n, j) + b (0, j). -/
theorem value (V : (c : Dev nD) → (b : Ref sig .tc) → Buf (Elt Ideal) ((c : Thread nD τ).loc b)) (c : Dev nD) :
    (dat2 (F := Ideal) V c).arrAt 2 cfg2.N = Cert.Spec.biasAdd (V c main_v43) (V c main_v44) :=
  (dat2 (F := Ideal) V c).arrAt_eq_of_cover 2 (Cert.Spec.biasAdd (V c main_v43) (V c main_v44))
    (fun t _ => flushed_eq V c t) covered

end Cert.KernelIdeal.Reg2

end
-- ==== Proof.KValue.lean ====
/-
  The kernel program's buffers read at each boundary of @main, from the launch to the return: the edge lists, the
  per-node scale and the arguments are carried unchanged through every stretch and region that does not write them;
  each region's output is the dense stage of what it finds; each stretch between regions is one aggregation step.
-/
import proofs.«429814_j67362267070571_3_alg».proof.Proof.Gen.KernelIdeal.Frame
import proofs.«429814_j67362267070571_3_alg».proof.Proof.KOps
import proofs.«429814_j67362267070571_3_alg».proof.Proof.Reg0Value
import proofs.«429814_j67362267070571_3_alg».proof.Proof.Reg1Value
import proofs.«429814_j67362267070571_3_alg».proof.Proof.Reg2Value
import Idealize.ShloMosaic.Lib.StableHlo.Run
import Idealize.ShloMosaic.PureOps.Ideal

set_option maxRecDepth 16384

noncomputable section

namespace Cert.KernelIdeal.KValue

open Cert.KernelIdeal Cert.KernelIdeal.Gen Cert.KernelIdeal.KOps
open Idealize.ShloMosaic Idealize.ShloMosaic.TcCoe Idealize.SL.Sem Idealize.ShloMosaic.StableHlo

variable (m : (ℓ : Loc nD τ sig) → Buf (Elt Ideal) ℓ) (ρ : Dev nD → PrngReg)

/-- A stretch of host operations leaves a buffer none of them writes as it was. -/
macro "host_keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-- The edge table as launched. -/
abbrev eiOf (c : Dev nD) : IVec S2x1600000 32 := m ((c : Thread nD τ).loc main_arg1)

/-! ## After the first stretch: the edge lists, the scale -/

theorem src_W1 (c : Dev nD) : W1 m ρ c (Proc.devRef .tc main_v3) = srcOf (eiOf m c) := by
  dsimp only [W1]; after_results; rfl
theorem dst_W1 (c : Dev nD) : W1 m ρ c (Proc.devRef .tc main_v6) = dstOf (eiOf m c) := by
  dsimp only [W1]; after_results; rfl
theorem dinv_W1 (c : Dev nD) : W1 m ρ c (Proc.devRef .tc main_v11) = dinvOf (eiOf m c) := by
  dsimp only [W1]; after_results; rfl
theorem dcol_W1 (c : Dev nD) : W1 m ρ c (Proc.devRef .tc main_v12) = dcolOf (eiOf m c) := by
  dsimp only [W1]; after_results; rfl
theorem x_W1 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem w1_W1 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0

theorem w2_W1 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem b1_W1 (c : Dev nD) : W1 m ρ c (Proc.devRef .tc main_arg3) = m ((c : Thread nD τ).loc main_arg3) := by
  show StableHlo.after hostOps0 (W0 m ρ c) (Proc.devRef .tc main_arg3) = W0 m ρ c (Proc.devRef .tc main_arg3)
  host_keeps hostOps0
theorem b2_W1 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0

/-! ## The stretches between the regions, from any contents -/

/-- A value written into a buffer through a typed reference and read back through a typed reference to the same
    buffer is the value. -/
theorem ofBuf_toBuf_of {Val : EltTy → Type} {T : BufTy} (r : Ref sig .tc) (e e' : r.ty = T) (d d' : r.space ≠ .host)
    (u u' : r.isScoped = false) (v : T.Contents Val) :
    (TRef.of r e d u).ofBuf ((TRef.of r e' d' u').toBuf v) = v := by
  subst e
  rfl

set_option maxHeartbeats 1000000 in
/-- The first stretch after a region is the masked gather of the region's output rows by source. -/
theorem take1_of (V : Valuation τ sig (Elt Ideal)) :
    StableHlo.after hostOps1 V (Proc.devRef .tc main_v14)
      = takeK (V (Proc.devRef .tc main_v13)) (V (Proc.devRef .tc main_v3)) := by
  after_results_simp
  simp only [ofBuf_toBuf_of]
  have hsrc : ∀ (e : main_v3.ty = (⟨S1700000, .i32⟩ : BufTy)) (d : main_v3.space ≠ .host) (u : main_v3.isScoped = false),
      (TRef.of (sig := sig) main_v3 e d u).ofBuf (V (Proc.devRef .tc main_v3))
        = (V (Proc.devRef .tc main_v3) : (⟨S1700000, .i32⟩ : BufTy).Contents (Elt Ideal)) := fun _ _ _ => rfl
  have hrows : ∀ (e : main_v13.ty = (⟨S100000x64, .f32⟩ : BufTy)) (d : main_v13.space ≠ .host) (u : main_v13.isScoped = false),
      (TRef.of (sig := sig) main_v13 e d u).ofBuf (V (Proc.devRef .tc main_v13))
        = (V (Proc.devRef .tc main_v13) : (⟨S100000x64, .f32⟩ : BufTy).Contents (Elt Ideal)) := fun _ _ _ => rfl
  have hout : ∀ (X : (⟨S1700000x64, .f32⟩ : BufTy).Contents (Elt Ideal))
      (e : main_v14.ty = (⟨S1700000x64, .f32⟩ : BufTy)) (d : main_v14.space ≠ .host) (u : main_v14.isScoped = false),
      (TRef.of (sig := sig) main_v14 e d u).toBuf X = X := fun _ _ _ _ => rfl
  simp only [hsrc, hrows]
  rw [hout]
  rfl
set_option maxHeartbeats 1000000 in
/-- The second multiplies by the destination's factor and adds up by destination, -/
theorem agg1_of (V : Valuation τ sig (Elt Ideal)) :
    StableHlo.after hostOps1_1 V (Proc.devRef .tc main_v27)
      = aggOf (V (Proc.devRef .tc main_v6)) (V (Proc.devRef .tc main_v11)) (V (Proc.devRef .tc main_v14)) := by
  after_results_simp
  rfl
/-- and lays the first bias out as a row. -/
theorem row1_of (V : Valuation τ sig (Elt Ideal)) :
    StableHlo.after hostOps1_1 V (Proc.devRef .tc main_v28) = rowOf (V (Proc.devRef .tc main_arg3)) := by
  after_results; rfl
set_option maxHeartbeats 1000000 in
theorem take2_of (V : Valuation τ sig (Elt Ideal)) :
    StableHlo.after hostOps2 V (Proc.devRef .tc main_v30)
      = takeK (V (Proc.devRef .tc main_v29)) (V (Proc.devRef .tc main_v3)) := by
  after_results_simp
  simp only [ofBuf_toBuf_of]
  have hsrc : ∀ (e : main_v3.ty = (⟨S1700000, .i32⟩ : BufTy)) (d : main_v3.space ≠ .host) (u : main_v3.isScoped = false),
      (TRef.of (sig := sig) main_v3 e d u).ofBuf (V (Proc.devRef .tc main_v3))
        = (V (Proc.devRef .tc main_v3) : (⟨S1700000, .i32⟩ : BufTy).Contents (Elt Ideal)) := fun _ _ _ => rfl
  have hrows : ∀ (e : main_v29.ty = (⟨S100000x64, .f32⟩ : BufTy)) (d : main_v29.space ≠ .host) (u : main_v29.isScoped = false),
      (TRef.of (sig := sig) main_v29 e d u).ofBuf (V (Proc.devRef .tc main_v29))
        = (V (Proc.devRef .tc main_v29) : (⟨S100000x64, .f32⟩ : BufTy).Contents (Elt Ideal)) := fun _ _ _ => rfl
  have hout : ∀ (X : (⟨S1700000x64, .f32⟩ : BufTy).Contents (Elt Ideal))
      (e : main_v30.ty = (⟨S1700000x64, .f32⟩ : BufTy)) (d : main_v30.space ≠ .host) (u : main_v30.isScoped = false),
      (TRef.of (sig := sig) main_v30 e d u).toBuf X = X := fun _ _ _ _ => rfl
  simp only [hsrc, hrows]
  rw [hout]
  rfl
set_option maxHeartbeats 1000000 in
theorem agg2_of (V : Valuation τ sig (Elt Ideal)) :
    StableHlo.after hostOps2_1 V (Proc.devRef .tc main_v43)
      = aggOf (V (Proc.devRef .tc main_v6)) (V (Proc.devRef .tc main_v11)) (V (Proc.devRef .tc main_v30)) := by
  after_results_simp
  rfl
theorem row2_of (V : Valuation τ sig (Elt Ideal)) :
    StableHlo.after hostOps2_1 V (Proc.devRef .tc main_v44) = rowOf (V (Proc.devRef .tc main_arg5)) := by
  after_results; rfl

/-! ## What is carried unchanged across each boundary -/

theorem src_W2 (c : Dev nD) : W2 m ρ c (Proc.devRef .tc main_v3) = srcOf (eiOf m c) :=
  (W2_of_ne m ρ c main_v3 (by decide)).trans (src_W1 m ρ c)
theorem src_W3 (c : Dev nD) : W3 m ρ c (Proc.devRef .tc main_v3) = srcOf (eiOf m c) := by
  refine Eq.trans ?_ (src_W2 m ρ c)
  show StableHlo.after hostOps1 (W2 m ρ c) (Proc.devRef .tc main_v3) = W2 m ρ c (Proc.devRef .tc main_v3)
  host_keeps hostOps1
theorem src_W4 (c : Dev nD) : W4 m ρ c (Proc.devRef .tc main_v3) = srcOf (eiOf m c) := by
  refine Eq.trans ?_ (src_W3 m ρ c)
  show StableHlo.after hostOps1_1 (W3 m ρ c) (Proc.devRef .tc main_v3) = W3 m ρ c (Proc.devRef .tc main_v3)
  host_keeps hostOps1_1
theorem src_W5 (c : Dev nD) : W5 m ρ c (Proc.devRef .tc main_v3) = srcOf (eiOf m c) :=
  (W5_of_ne m ρ c main_v3 (by decide)).trans (src_W4 m ρ c)
theorem dst_W2 (c : Dev nD) : W2 m ρ c (Proc.devRef .tc main_v6) = dstOf (eiOf m c) :=
  (W2_of_ne m ρ c main_v6 (by decide)).trans (dst_W1 m ρ c)
theorem dst_W3 (c : Dev nD) : W3 m ρ c (Proc.devRef .tc main_v6) = dstOf (eiOf m c) := by
  refine Eq.trans ?_ (dst_W2 m ρ c)
  show StableHlo.after hostOps1 (W2 m ρ c) (Proc.devRef .tc main_v6) = W2 m ρ c (Proc.devRef .tc main_v6)
  host_keeps hostOps1
theorem dst_W4 (c : Dev nD) : W4 m ρ c (Proc.devRef .tc main_v6) = dstOf (eiOf m c) := by
  refine Eq.trans ?_ (dst_W3 m ρ c)
  show StableHlo.after hostOps1_1 (W3 m ρ c) (Proc.devRef .tc main_v6) = W3 m ρ c (Proc.devRef .tc main_v6)
  host_keeps hostOps1_1
theorem dst_W5 (c : Dev nD) : W5 m ρ c (Proc.devRef .tc main_v6) = dstOf (eiOf m c) :=
  (W5_of_ne m ρ c main_v6 (by decide)).trans (dst_W4 m ρ c)
theorem dst_W6 (c : Dev nD) : W6 m ρ c (Proc.devRef .tc main_v6) = dstOf (eiOf m c) := by
  refine Eq.trans ?_ (dst_W5 m ρ c)
  show StableHlo.after hostOps2 (W5 m ρ c) (Proc.devRef .tc main_v6) = W5 m ρ c (Proc.devRef .tc main_v6)
  host_keeps hostOps2
theorem dinv_W2 (c : Dev nD) : W2 m ρ c (Proc.devRef .tc main_v11) = dinvOf (eiOf m c) :=
  (W2_of_ne m ρ c main_v11 (by decide)).trans (dinv_W1 m ρ c)
theorem dinv_W3 (c : Dev nD) : W3 m ρ c (Proc.devRef .tc main_v11) = dinvOf (eiOf m c) := by
  refine Eq.trans ?_ (dinv_W2 m ρ c)
  show StableHlo.after hostOps1 (W2 m ρ c) (Proc.devRef .tc main_v11) = W2 m ρ c (Proc.devRef .tc main_v11)
  host_keeps hostOps1
theorem dinv_W4 (c : Dev nD) : W4 m ρ c (Proc.devRef .tc main_v11) = dinvOf (eiOf m c) := by
  refine Eq.trans ?_ (dinv_W3 m ρ c)
  show StableHlo.after hostOps1_1 (W3 m ρ c) (Proc.devRef .tc main_v11) = W3 m ρ c (Proc.devRef .tc main_v11)
  host_keeps hostOps1_1
theorem dinv_W5 (c : Dev nD) : W5 m ρ c (Proc.devRef .tc main_v11) = dinvOf (eiOf m c) :=
  (W5_of_ne m ρ c main_v11 (by decide)).trans (dinv_W4 m ρ c)
theorem dinv_W6 (c : Dev nD) : W6 m ρ c (Proc.devRef .tc main_v11) = dinvOf (eiOf m c) := by
  refine Eq.trans ?_ (dinv_W5 m ρ c)
  show StableHlo.after hostOps2 (W5 m ρ c) (Proc.devRef .tc main_v11) = W5 m ρ c (Proc.devRef .tc main_v11)
  host_keeps hostOps2
theorem dcol_W2 (c : Dev nD) : W2 m ρ c (Proc.devRef .tc main_v12) = dcolOf (eiOf m c) :=
  ((W2_arr m ρ c 2).trans (((dat0 (V1 m ρ) c).arrAt_in 2 rfl _).trans (A_eq0 (V1 m ρ) c 2))).trans (dcol_W1 m ρ c)
theorem dcol_W3 (c : Dev nD) : W3 m ρ c (Proc.devRef .tc main_v12) = dcolOf (eiOf m c) := by
  refine Eq.trans ?_ (dcol_W2 m ρ c)
  show StableHlo.after hostOps1 (W2 m ρ c) (Proc.devRef .tc main_v12) = W2 m ρ c (Proc.devRef .tc main_v12)
  host_keeps hostOps1
theorem dcol_W4 (c : Dev nD) : W4 m ρ c (Proc.devRef .tc main_v12) = dcolOf (eiOf m c) := by
  refine Eq.trans ?_ (dcol_W3 m ρ c)
  show StableHlo.after hostOps1_1 (W3 m ρ c) (Proc.devRef .tc main_v12) = W3 m ρ c (Proc.devRef .tc main_v12)
  host_keeps hostOps1_1
theorem b1_W2 (c : Dev nD) : W2 m ρ c (Proc.devRef .tc main_arg3) = m ((c : Thread nD τ).loc main_arg3) :=
  (W2_of_ne m ρ c main_arg3 (by decide)).trans (b1_W1 m ρ c)
theorem b1_W3 (c : Dev nD) : W3 m ρ c (Proc.devRef .tc main_arg3) = m ((c : Thread nD τ).loc main_arg3) := by
  refine Eq.trans ?_ (b1_W2 m ρ c)
  show StableHlo.after hostOps1 (W2 m ρ c) (Proc.devRef .tc main_arg3) = W2 m ρ c (Proc.devRef .tc main_arg3)
  host_keeps hostOps1
theorem w2_W2 (c : Dev nD) : W2 m ρ c (Proc.devRef .tc main_arg4) = m ((c : Thread nD τ).loc main_arg4) :=
  (W2_of_ne m ρ c main_arg4 (by decide)).trans (w2_W1 m ρ c)
theorem w2_W3 (c : Dev nD) : W3 m ρ c (Proc.devRef .tc main_arg4) = m ((c : Thread nD τ).loc main_arg4) := by
  refine Eq.trans ?_ (w2_W2 m ρ c)
  show StableHlo.after hostOps1 (W2 m ρ c) (Proc.devRef .tc main_arg4) = W2 m ρ c (Proc.devRef .tc main_arg4)
  host_keeps hostOps1
theorem w2_W4 (c : Dev nD) : W4 m ρ c (Proc.devRef .tc main_arg4) = m ((c : Thread nD τ).loc main_arg4) := by
  refine Eq.trans ?_ (w2_W3 m ρ c)
  show StableHlo.after hostOps1_1 (W3 m ρ c) (Proc.devRef .tc main_arg4) = W3 m ρ c (Proc.devRef .tc main_arg4)
  host_keeps hostOps1_1
theorem b2_W2 (c : Dev nD) : W2 m ρ c (Proc.devRef .tc main_arg5) = m ((c : Thread nD τ).loc main_arg5) :=
  (W2_of_ne m ρ c main_arg5 (by decide)).trans (b2_W1 m ρ c)
theorem b2_W3 (c : Dev nD) : W3 m ρ c (Proc.devRef .tc main_arg5) = m ((c : Thread nD τ).loc main_arg5) := by
  refine Eq.trans ?_ (b2_W2 m ρ c)
  show StableHlo.after hostOps1 (W2 m ρ c) (Proc.devRef .tc main_arg5) = W2 m ρ c (Proc.devRef .tc main_arg5)
  host_keeps hostOps1
theorem b2_W4 (c : Dev nD) : W4 m ρ c (Proc.devRef .tc main_arg5) = m ((c : Thread nD τ).loc main_arg5) := by
  refine Eq.trans ?_ (b2_W3 m ρ c)
  show StableHlo.after hostOps1_1 (W3 m ρ c) (Proc.devRef .tc main_arg5) = W3 m ρ c (Proc.devRef .tc main_arg5)
  host_keeps hostOps1_1
theorem b2_W5 (c : Dev nD) : W5 m ρ c (Proc.devRef .tc main_arg5) = m ((c : Thread nD τ).loc main_arg5) :=
  (W5_of_ne m ρ c main_arg5 (by decide)).trans (b2_W4 m ρ c)
theorem b2_W6 (c : Dev nD) : W6 m ρ c (Proc.devRef .tc main_arg5) = m ((c : Thread nD τ).loc main_arg5) := by
  refine Eq.trans ?_ (b2_W5 m ρ c)
  show StableHlo.after hostOps2 (W5 m ρ c) (Proc.devRef .tc main_arg5) = W5 m ρ c (Proc.devRef .tc main_arg5)
  host_keeps hostOps2

/-! ## The values, boundary by boundary -/

/-- The first layer's scaled features. -/
abbrev h1Of (c : Dev nD) : FVec Ideal S100000x64 .f32 :=
  Cert.Spec.scaledMatmul (m ((c : Thread nD τ).loc main_arg0)) (m ((c : Thread nD τ).loc main_arg2)) (dcolOf (eiOf m c))
/-- The second layer's scaled features. -/
abbrev h2Of (c : Dev nD) : FVec Ideal S100000x64 .f32 :=
  Cert.Spec.scaledMatmul (Cert.Spec.biasRelu (aggK (eiOf m c) (h1Of m c)) (rowOf (m ((c : Thread nD τ).loc main_arg3)))) (m ((c : Thread nD τ).loc main_arg4)) (dcolOf (eiOf m c))
/-- The program's result. -/
abbrev outOf (c : Dev nD) : FVec Ideal S100000x64 .f32 :=
  Cert.Spec.biasAdd (aggK (eiOf m c) (h2Of m c)) (rowOf (m ((c : Thread nD τ).loc main_arg5)))

theorem h1_W2 (c : Dev nD) : W2 m ρ c (Proc.devRef .tc main_v13) = h1Of m c := by
  refine (W2_arr m ρ c 3).trans ?_
  refine (Cert.KernelIdeal.Reg0.value (V1 m ρ) c).trans ?_
  show Cert.Spec.scaledMatmul (W1 m ρ c (Proc.devRef .tc main_arg0)) (W1 m ρ c (Proc.devRef .tc main_arg2)) (W1 m ρ c (Proc.devRef .tc main_v12)) = _
  rw [x_W1, w1_W1, dcol_W1]

theorem t1_W3 (c : Dev nD) : W3 m ρ c (Proc.devRef .tc main_v14) = takeK (h1Of m c) (srcOf (eiOf m c)) := by
  refine (take1_of (W2 m ρ c)).trans ?_
  rw [h1_W2, src_W2]

theorem a1_W4 (c : Dev nD) : W4 m ρ c (Proc.devRef .tc main_v27) = aggK (eiOf m c) (h1Of m c) := by
  refine (agg1_of (W3 m ρ c)).trans ?_
  rw [dst_W3, dinv_W3, t1_W3]
  rfl

theorem r1_W4 (c : Dev nD) : W4 m ρ c (Proc.devRef .tc main_v28) = rowOf (m ((c : Thread nD τ).loc main_arg3)) := by
  refine (row1_of (W3 m ρ c)).trans ?_
  rw [b1_W3]

theorem h2_W5 (c : Dev nD) : W5 m ρ c (Proc.devRef .tc main_v29) = h2Of m c := by
  refine (W5_arr m ρ c 4).trans ?_
  refine (Cert.KernelIdeal.Reg1.value (V4 m ρ) c).trans ?_
  show Cert.Spec.scaledMatmul (Cert.Spec.biasRelu (W4 m ρ c (Proc.devRef .tc main_v27)) (W4 m ρ c (Proc.devRef .tc main_v28))) (W4 m ρ c (Proc.devRef .tc main_arg4)) (W4 m ρ c (Proc.devRef .tc main_v12)) = _
  rw [a1_W4, r1_W4, w2_W4, dcol_W4]

theorem t2_W6 (c : Dev nD) : W6 m ρ c (Proc.devRef .tc main_v30) = takeK (h2Of m c) (srcOf (eiOf m c)) := by
  refine (take2_of (W5 m ρ c)).trans ?_
  rw [h2_W5, src_W5]

theorem a2_W7 (c : Dev nD) : W7 m ρ c (Proc.devRef .tc main_v43) = aggK (eiOf m c) (h2Of m c) := by
  refine (agg2_of (W6 m ρ c)).trans ?_
  rw [dst_W6, dinv_W6, t2_W6]
  rfl

theorem r2_W7 (c : Dev nD) : W7 m ρ c (Proc.devRef .tc main_v44) = rowOf (m ((c : Thread nD τ).loc main_arg5)) := by
  refine (row2_of (W6 m ρ c)).trans ?_
  rw [b2_W6]

/-- What the result buffer holds at the return: bias added to the second aggregation. -/
theorem out_W8 (c : Dev nD) : W8 m ρ c (Proc.devRef .tc main_v45) = outOf m c := by
  refine (W8_arr m ρ c 2).trans ?_
  refine (Cert.KernelIdeal.Reg2.value (V7 m ρ) c).trans ?_
  show Cert.Spec.biasAdd (W7 m ρ c (Proc.devRef .tc main_v43)) (W7 m ρ c (Proc.devRef .tc main_v44)) = _
  rw [a2_W7, r2_W7]

end Cert.KernelIdeal.KValue

end
-- ==== Proof.PreDecode.lean ====
/-
  The precondition read back: when the printed predicate holds, every entry of the edge table is a node id —
  as a signed word it lies in [0, 100000).
-/
import proofs.«429814_j67362267070571_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Cert.Pre_finite_inputs

variable [Cert.Pre_finite_inputs.Facts]

/-- The scalar shape has exactly one index. -/
private instance subsingleton_scalarIdx : Subsingleton S_.Idx := ⟨fun a b => funext fun d => d.elim0⟩

/-- Under the precondition every entry of the edge table, read signed, is at least 0 and below 100000. -/
theorem edge_in_range {F : FTy → Type} [FloatOps F]
    (a0 : FVec F S100000x64 .f32) (ei : IVec S2x1600000 32) (a2 : FVec F S64x64 .f32) (a3 : FVec F S64 .f32)
    (a4 : FVec F S64x64 .f32) (a5 : FVec F S64 .f32)
    (h : Cert.Pre_finite_inputs.fn (F := F) a0 ei a2 a3 a4 a5 = fun _ => 1#1) (i : S2x1600000.Idx) :
    0 ≤ (ei i).toInt ∧ (ei i).toInt < 100000 := by
  -- The predicate is a scalar; read it at its one index.
  have h0 := congrFun h ValueIdx.ix0
  unfold Cert.Pre_finite_inputs.fn at h0
  unfold Cert.Pre_finite_inputs.fn_part1 at h0
  -- The result is the conjunction of the float part with the reduce-and over the edge table; keep the second conjunct.
  obtain ⟨-, hall⟩ := IntOp.andi_eq_one.1 h0
  -- A reduce-and over both axes that came out 1 met a 1 at every index, in particular at `i`.
  have he := Host.reduce_andi_all _ _ _ _ _ hall i
  -- At `i` the element is the conjunction of the two signed comparisons of `ei i` with the broadcast constants.
  obtain ⟨hge, hlt⟩ := IntOp.andi_eq_one.1 he
  -- A scalar broadcast of a constant reads that constant at every index.
  have h1 : (0#32 : BitVec 32).toInt ≤ (ei i).toInt := IntOp.cmpi_sge.1 hge
  have h2 : (ei i).toInt < (100000#32 : BitVec 32).toInt := IntOp.cmpi_slt.1 hlt
  have e0 : (0#32 : BitVec 32).toInt = 0 := by decide
  have e1 : (100000#32 : BitVec 32).toInt = 100000 := by decide
  rw [e0] at h1
  rw [e1] at h2
  exact ⟨h1, h2⟩

end Cert.PreDecode

end
-- ==== Proof.TakeMask.lean ====
/-
  Under the precondition the masked row gather is a plain row gather: every source index is a node id, so the wrap
  of negative indices changes nothing and the in-range mask is set everywhere.
-/
import proofs.«429814_j67362267070571_3_alg».proof.Proof.KOps
import Idealize.ShloMosaic.Lib.ReduceAll
import Idealize.ShloMosaic.Lib.StableHlo.Predicate
import Idealize.ShloMosaic.Lib.Pipeline.Value
import Idealize.ShloMosaic.Lib.ValueIdx

noncomputable section

namespace Cert.KernelIdeal.TakeMask

open Cert.KernelIdeal Cert.KernelIdeal.KOps Idealize.ShloMosaic
open Cert.KernelIdeal.Facts₀

open Idealize.ShloMosaic.StableHlo.Predicate in
/-- The source list holds node ids when the edge table does: an entry is an entry of row 0 of the table, or
    (past the 1600000 given edges) the node's own number. -/
theorem src_in_range (ei : IVec S2x1600000 32) (h : ∀ i : S2x1600000.Idx, 0 ≤ (ei i).toInt ∧ (ei i).toInt < 100000)
    (e : S1700000.Idx) : 0 ≤ (srcOf ei e).toInt ∧ (srcOf ei e).toInt < 100000 := by
  have he : (e 0).val < 1700000 := (e 0).isLt
  by_cases hc : (e 0).val < 1600000
  · -- among the given edges: the entry of row 0 of the table at that position
    have hread : srcOf ei e
        = Cert.ReferenceIdeal.Read.val_main_v2 (F := Ideal) ei (ValueIdx.ix1 ⟨(e 0).val, hc⟩) :=
      concatenate_pair_apply_left (t := S1700000) (s₁ := S1600000) (s₂ := S100000) 0 _ _ _ e rfl _
        (fun b => by match b with | ⟨0, _⟩ => rfl)
    rw [hread, Cert.ReferenceIdeal.Read.val_main_v2_apply, Cert.ReferenceIdeal.Read.val_main_v1_apply]
    exact h _
  · -- among the self loops: the node's own number, below 100000
    have hk : (e 0).val - 1600000 < 100000 := by omega
    have hread : srcOf ei e
        = Cert.ReferenceIdeal.Read.val_main_v0 (F := Ideal) (ValueIdx.ix1 ⟨(e 0).val - 1600000, hk⟩) :=
      concatenate_pair_apply_right (t := S1700000) (s₁ := S1600000) (s₂ := S100000) 0 _ _ _ e rfl rfl _
        (fun b hb => absurd (Subsingleton.elim _ _) hb)
        (by show (e 0).val - 1600000 + 1600000 = (e 0).val; omega)
    rw [hread, Cert.ReferenceIdeal.Read.val_main_v0_apply]
    show 0 ≤ (BitVec.ofNat 32 ((e 0).val - 1600000)).toInt ∧ (BitVec.ofNat 32 ((e 0).val - 1600000)).toInt < 100000
    rw [toInt_ofNat_small _ (by omega)]
    constructor <;> omega

/-- No index of a list of node ids is negative: the wrap leaves the list as it is. -/
theorem wrap_id (v : IVec S1700000 32) (h : ∀ e : S1700000.Idx, 0 ≤ (v e).toInt ∧ (v e).toInt < 100000) :
    wrapK v = v := by
  funext e
  obtain ⟨h0, -⟩ := h e
  -- the test "v e < 0" fails, so the selection keeps v e
  have hc : ¬ IntOp.cmpi .slt (v e) 0#32 = 1#1 := fun hc => by
    have := IntOp.cmpi_slt.1 hc
    rw [show (0#32 : BitVec 32).toInt = 0 from by decide] at this
    omega
  exact if_neg hc

/-- A left fold by `and` of ones, started at one, is one. -/
private theorem foldl_andi_const_one {ι : Type} (l : List ι) :
    l.foldl (fun r (_ : ι) => IntOp.andi r (1#1 : BitVec 1)) 1#1 = 1#1 := by
  induction l with
  | nil => rfl
  | cons a l ih => exact ih

/-- Every index of a list of node ids passes the range test: the mask is set at every edge and column. -/
theorem mask_all (v : IVec S1700000 32) (h : ∀ e : S1700000.Idx, 0 ≤ (v e).toInt ∧ (v e).toInt < 100000) :
    maskK (colK v) = fun _ => 1#1 := by
  -- the column of start indices reads the list at some edge
  have key : ∀ p : S1700000x1.Idx, ∃ e, colK v p = v e := fun p => ⟨_, rfl⟩
  -- so both comparisons hold at every row of the column
  have hx : (andi (cmpi .sge (colK v) (broadcastInDim S1700000x1 ![] bcast_S_S1700000x1 (constantI S_ 32 0#32)))
        (cmpi .sle (colK v) (broadcastInDim S1700000x1 ![0, 1] bcast_S1x1_S1700000x1_0_1
          (broadcastInDim S1x1 ![1] bcast_S1_S1x1_1 (constantI S1 32 99999#32))))) = fun _ => 1#1 := by
    funext p
    obtain ⟨e, he⟩ := key p
    obtain ⟨h0, h1⟩ := h e
    have a1 : IntOp.cmpi .sge (v e) 0#32 = 1#1 :=
      IntOp.cmpi_sge.2 (by rw [show (0#32 : BitVec 32).toInt = 0 from by decide]; exact h0)
    have a2 : IntOp.cmpi .sle (v e) 99999#32 = 1#1 :=
      IntOp.cmpi_sle.2 (by rw [show (99999#32 : BitVec 32).toInt = 99999 from by decide]; omega)
    show IntOp.andi (IntOp.cmpi .sge (colK v p) 0#32) (IntOp.cmpi .sle (colK v p) 99999#32) = 1#1
    rw [he, a1, a2]; decide
  unfold maskK
  rw [hx]
  funext q
  -- the reduce-and of ones from one is one, and the broadcast along the columns reads it
  show Host.reduce IntOp.andi (fun _ => 1#1) (constantI S_ 1 1#1) reducesTo_S1700000x1_S1700000_d1 h_S_ _ = 1#1
  rw [Host.reduce_eq_foldl]
  exact foldl_andi_const_one _

/-- So the masked gather of rows is the gather of rows. -/
theorem take_eq_gather (H : FVec Ideal S100000x64 .f32) (v : IVec S1700000 32)
    (h : ∀ e : S1700000.Idx, 0 ≤ (v e).toInt ∧ (v e).toInt < 100000) :
    takeK H v = Host.gather gather_S100000x64_S1700000x1_S1700000x64_1_0_n_n_0_1_164 H (colK v) := by
  unfold takeK
  rw [wrap_id v h, mask_all v h]
  -- a selection under a mask of ones is its first branch
  funext p
  show Scalar.select 1#1 _ _ = _
  unfold Scalar.select
  exact if_pos (show (1#1 : BitVec 1) = 1 from rfl)

end Cert.KernelIdeal.TakeMask

end
-- ==== Proof.LibGatherRows.lean ====
/-
  THE HOST'S GATHER OF WHOLE ROWS READ AT AN INDEX: operand [P, C], start indices [N, 1] with the index vector on
  axis 1, result [N, C]; offset axes [1], collapsed slice axes [0], start index map [0], slice sizes [1, C], no
  batching axes. Result element (n, ch) is the operand at row idx[n, 0], read signed and clamped into [0, P - 1], and
  column ch. The extents and the index width are variables; the dimension numbers are known only through the
  equations on their lists.
-/
import Idealize.ShloMosaic.PureOps.ShapeOps
import Idealize.ShloMosaic.Lib.ValueIdx

namespace Idealize.ShloMosaic.GatherRows

open Idealize.ShloMosaic Idealize.ShloMosaic.ValueIdx

/-! ## A list with one entry -/

/-- Every entry of a list that equals a one-entry list is that entry. -/
theorem getElem_singleton_of_eq {α : Type} {l : List α} {a : α} (h : l = [a]) (k : Nat) (hk : k < l.length) :
    l[k] = a := by
  subst h
  have hk0 : k = 0 := by simpa using hk
  subst hk0
  rfl

/-! ## The general gather: the start-indices index of a result index, axis by axis -/

section General
variable {s si t : Shape} (d : GatherDims s si t)

/-- On the index vector's axis the start-indices index has the component's number. -/
theorem siIdx_val_of_eq (j : t.Idx) (c : Fin d.startIndexMap.length) (b : Fin si.rank)
    (hb : b.val = d.indexVectorDim) : (d.siIdx j c b).val = c.val := by
  unfold GatherDims.siIdx
  rw [dif_pos hb]

/-- With one result batch axis a, the start-indices index has, off the index vector's axis, the result index's
    coordinate on a. -/
theorem siIdx_val_of_ne (j : t.Idx) (c : Fin d.startIndexMap.length) (b : Fin si.rank)
    (hb : ¬ b.val = d.indexVectorDim) (a : Fin t.rank) (ha : d.batchDims = [a]) :
    (d.siIdx j c b).val = (j a).val := by
  unfold GatherDims.siIdx
  rw [dif_neg hb]
  unfold GatherDims.siCoord
  exact congrArg (fun e => (j e).val) (getElem_singleton_of_eq ha _ _)

/-- With one offset axis b, the offset coordinate on a kept operand axis is the result index's coordinate on b. -/
theorem offCoord_of_singleton (j : t.Idx) (a : Fin s.rank) (ha : a ∈ d.sKept) (b : Fin t.rank)
    (hb : d.offsetDims = [b]) : d.offCoord j a = (j b).val := by
  unfold GatherDims.offCoord
  rw [dif_pos ha]
  exact congrArg (fun e => (j e).val) (getElem_singleton_of_eq hb _ _)

end General

/-! ## Operand [P, C], start indices [N, 1], result [N, C] -/

/-- THE GATHER READ AT (n, ch): the operand at the clamped start row and the same column. -/
theorem gather_rows_apply {α : Type} {P C N w : Nat} (hP : 0 < P)
    (d : GatherDims (⟨2, ![P, C]⟩ : Shape) (⟨2, ![N, 1]⟩ : Shape) (⟨2, ![N, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  -- no operand axis is a batching axis
  have hnb : ∀ a : Fin 2, a ∉ d.operandBatchingDims := fun a h => by rw [hob] at h; exact List.not_mem_nil h
  -- axis 0 is the one start axis and is collapsed; axis 1 is the one kept axis
  have h0mem : (0 : Fin 2) ∈ d.startIndexMap := by rw [hsm]; exact List.mem_singleton.2 rfl
  have h1nmem : (1 : Fin 2) ∉ d.startIndexMap := by rw [hsm]; exact fun h => h10 (List.mem_singleton.1 h)
  have h0k : (0 : Fin 2) ∉ d.sKept := fun h =>
    ((d.mem_sKept 0).1 h).1 (by rw [hcs]; exact List.mem_singleton.2 rfl)
  have h1k : (1 : Fin 2) ∈ d.sKept :=
    (d.mem_sKept 1).2 ⟨by rw [hcs]; exact fun h => h10 (List.mem_singleton.1 h), hnb 1⟩
  -- the result's one batch axis is axis 0
  have hbd : d.batchDims = [0] := by
    show Shape.kept _ d.offsetDims = [0]
    rw [hod]; rfl
  -- the start-indices index of (n, ch) is [n, 0], whatever the component
  have hsi : ∀ c : Fin d.startIndexMap.length, d.siIdx (ix2 n ch) c = ix2 n (0 : Fin 1) := by
    intro c
    funext b
    refine Fin.ext ?_
    match b with
    | ⟨0, hb⟩ =>
      rw [siIdx_val_of_ne d (ix2 n ch) c ⟨0, hb⟩ (by rw [hiv]; exact Nat.zero_ne_one) 0 hbd]
      rfl
    | ⟨1, hb⟩ =>
      have h1 : (d.siIdx (ix2 n ch) c ⟨1, hb⟩).val < 1 := (d.siIdx (ix2 n ch) c ⟨1, hb⟩).isLt
      show (d.siIdx (ix2 n ch) c ⟨1, hb⟩).val = 0
      omega
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    simp only [Nat.add_zero]
    unfold GatherDims.start
    rw [dif_pos h0mem, hsi, hss]
    rfl
  | ⟨1, _⟩ =>
    show d.start (ix2 n ch) idx 1 + d.batchCoord (ix2 n ch) 1 + d.offCoord (ix2 n ch) 1 = ch.val
    rw [d.batchCoord_eq_zero _ _ (hnb 1), offCoord_of_singleton d _ _ h1k 1 hod]
    simp only [Nat.add_zero]
    unfold GatherDims.start
    rw [dif_neg h1nmem, Nat.zero_add]
    rfl

end Idealize.ShloMosaic.GatherRows
-- ==== Proof.Layer.lean ====
/-
  One aggregation step, kernel against reference. The kernel scales the rows by the source's factor before it
  gathers them and multiplies the gathered row by the destination's factor; the reference gathers the unscaled rows
  and multiplies by the product of the two factors. A gather reads the same clamped row of every array, so the two
  messages are H (s, j) · d s · d t and H (s, j) · (d s · d t): equal because multiplication of extended reals is
  associative. The sums by destination are then sums of equal terms.
-/
import proofs.«429814_j67362267070571_3_alg».proof.Proof.KOps
import proofs.«429814_j67362267070571_3_alg».proof.Proof.TakeMask
import proofs.«429814_j67362267070571_3_alg».proof.Proof.LibGatherRows
import proofs.«429814_j67362267070571_3_alg».proof.Proof.Spec
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal.Laws

noncomputable section

namespace Cert.Layer

open Cert.KernelIdeal Cert.KernelIdeal.KOps Idealize.ShloMosaic
open Cert.KernelIdeal.Facts₀

open Idealize.ShloMosaic.StableHlo.Predicate in
/-- A vector laid along the rows of the [1700000, 64] rectangle reads, at (n, q), the vector at n. -/
private theorem along_rows_at {α : Type} (h₁ : S1700000.BroadcastsInDim S1700000x1 ![0])
    (h₂ : S1700000x1.BroadcastsInDim S1700000x64 ![0, 1]) (v : S1700000.Idx → α) (n : Fin 1700000) (q : Fin 64) :
    broadcastInDim S1700000x64 ![0, 1] h₂ (broadcastInDim S1700000x1 ![0] h₁ v) (ValueIdx.ix2 n q) = v (Shape.Idx.ofFin n) :=
  bcast_rows h₁ h₂ v n q

/-- The per-node factor kept as a column reads, at (r, 0), the factor of node r. -/
private theorem column_at (dinv : FVec Ideal S100000 .f32) (r : Fin 100000) (q : Fin 64) :
    shapeCast S100000x1 dinv shapeCasts_S100000_S100000x1 (Cert.Spec.rowCol0 (ValueIdx.ix2 r q)) = dinv (Shape.Idx.ofFin r) := by
  refine shapeCast_apply dinv shapeCasts_S100000_S100000x1 _ (Shape.Idx.ofFin r) ?_
  rw [Shape.rowMajor_val_one, Shape.rowMajor_val_two]
  show r.val = r.val * 1 + 0
  omega

open Idealize.ShloMosaic.StableHlo.Predicate Idealize.ShloMosaic.GatherRows in
/-- The two messages of an edge, entry by entry: with s the (clamped) source and t the (wrapped, clamped) destination,
    the kernel's is (H (s, q) · d s) · d t and the reference's H (s, q) · (d s · d t). -/
private theorem messages_eq (src dst : IVec S1700000 32) (dinv : FVec Ideal S100000 .f32) (H : FVec Ideal S100000x64 .f32)
    (hsrc : ∀ e : S1700000.Idx, 0 ≤ (src e).toInt ∧ (src e).toInt < 100000) :
    mulf (Host.gather gather_S100000x64_S1700000x1_S1700000x64_1_0_n_n_0_1_164
            (fun o => H o * shapeCast S100000x1 dinv shapeCasts_S100000_S100000x1 (Cert.Spec.rowCol0 o)) (colK src))
         (dstScaleOf dst dinv)
      = mulf (Host.gather Cert.ReferenceIdeal.gather_S100000x64_S1700000x1_S1700000x64_1_0_n_n_0_1_164 H (colK (wrapK src)))
          (broadcastInDim S1700000x64 ![0, 1] bcast_S1700000x1_S1700000x64_0_1
            (broadcastInDim S1700000x1 ![0] bcast_S1700000_S1700000x1_0
              (mulf (Host.gather Cert.ReferenceIdeal.gather_S100000_S1700000x1_S1700000_n_0_n_n_0_1_1 dinv (colK (wrapK src)))
                    (Host.gather Cert.ReferenceIdeal.gather_S100000_S1700000x1_S1700000_n_0_n_n_0_1_1 dinv (colK (wrapK dst)))))) := by
  rw [Cert.KernelIdeal.TakeMask.wrap_id src hsrc]
  funext j
  obtain ⟨n, q, rfl⟩ : ∃ (n : Fin 1700000) (q : Fin 64), j = ValueIdx.ix2 n q := ⟨j 0, j 1, ValueIdx.eq_ix2 j⟩
  rw [ValueIdx.mulf_apply, ValueIdx.mulf_apply]
  unfold dstScaleOf
  rw [along_rows_at, along_rows_at, ValueIdx.mulf_apply]
  rw [gather_rows_apply (P := 100000) (C := 64) (N := 1700000) (by decide)
        gather_S100000x64_S1700000x1_S1700000x64_1_0_n_n_0_1_164 rfl rfl rfl rfl rfl rfl rfl _ (colK src) n q,
      gather_rows_apply (P := 100000) (C := 64) (N := 1700000) (by decide)
        Cert.ReferenceIdeal.gather_S100000x64_S1700000x1_S1700000x64_1_0_n_n_0_1_164 rfl rfl rfl rfl rfl rfl rfl H (colK src) n q]
  rw [gather_take gather_S100000_S1700000x1_S1700000_n_0_n_n_0_1_1 rfl rfl rfl rfl dinv (colK (wrapK dst)) n (by decide),
      gather_take Cert.ReferenceIdeal.gather_S100000_S1700000x1_S1700000_n_0_n_n_0_1_1 rfl rfl rfl rfl dinv (colK src) n (by decide),
      gather_take Cert.ReferenceIdeal.gather_S100000_S1700000x1_S1700000_n_0_n_n_0_1_1 rfl rfl rfl rfl dinv (colK (wrapK dst)) n (by decide)]
  show (H _ * shapeCast S100000x1 dinv shapeCasts_S100000_S100000x1 (Cert.Spec.rowCol0 (ValueIdx.ix2 _ q))) * _ = _
  rw [column_at]
  have e : (ValueIdx.ix2 n (0 : Fin 1) : S1700000x1.Idx) = ixP n :=
    funext fun a => by match a with | ⟨0, _⟩ => rfl | ⟨1, _⟩ => rfl
  rw [mul_assoc (G := EReal)]
  refine congrArg (fun b : EReal => _ * (b * _)) (congrArg dinv (congrArg Shape.Idx.ofFin (Fin.ext ?_)))
  show min (colK src (ValueIdx.ix2 n (0 : Fin 1))).toInt.toNat (100000 - 1) = min (colK src (ixP n)).toInt.toNat (100000 - 1)
  rw [e]

/-- The kernel's aggregation of rows already scaled by their own node's factor is the reference's aggregation of
    the unscaled rows with the per-edge product of factors. -/
theorem agg_scaled (ei : IVec S2x1600000 32)
    (hsrc : ∀ e : S1700000.Idx, 0 ≤ (srcOf ei e).toInt ∧ (srcOf ei e).toInt < 100000)
    (H : FVec Ideal S100000x64 .f32) :
    aggK ei (fun o => H o * dcolOf ei (Cert.Spec.rowCol0 o))
      = Host.scatterAdd Cert.ReferenceIdeal.scatter_S100000x64_S1700000x1_S1700000x64_1_0_0_1
          (Cert.ReferenceIdeal.Read.val_main_v38 (F := Ideal)) (Cert.ReferenceIdeal.Read.val_main_v39 (F := Ideal) ei)
          (mulf (Host.gather Cert.ReferenceIdeal.gather_S100000x64_S1700000x1_S1700000x64_1_0_n_n_0_1_164 H
                  (Cert.ReferenceIdeal.Read.val_main_v33 (F := Ideal) ei))
                (Cert.ReferenceIdeal.Read.val_main_v36 (F := Ideal) ei)) := by
  unfold aggK aggOf
  rw [Cert.KernelIdeal.TakeMask.take_eq_gather _ _ hsrc]
  have hU := messages_eq (srcOf ei) (dstOf ei) (dinvOf ei) H hsrc
  exact congrArg (Host.scatterAdd scatter_S100000x64_S1700000x1_S1700000x64_1_0_0_1
    (broadcastInDim S100000x64 ![] bcast_S_S100000x64 (constant S_ .f32 0x00000000#32)) (colK (dstOf ei))) hU

end Cert.Layer

end
-- ==== Proof.RefDense.lean ====
/-
  The reference's dense stages are the specification's: its matrix product read at an index is the sum over the 64
  inner positions; its bias broadcasts read at an index are the bias at the column; its positive part is the maximum
  with zero.
-/
import proofs.«429814_j67362267070571_3_alg».proof.Proof.Gen.ReferenceIdeal.Read
import proofs.«429814_j67362267070571_3_alg».proof.Proof.KOps
import proofs.«429814_j67362267070571_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.RefDense

open Cert.ReferenceIdeal Cert.ReferenceIdeal.Read Idealize.ShloMosaic

/-- The matrix product's left read is the specification's: row of the output index, inner position `k`. -/
private theorem lidx_eq (o : S100000x64.Idx) (k : Fin 64) : lidx_main_v27 o k = Cert.Spec.rowK o k :=
  funext fun a => match a with
    | ⟨0, _⟩ => rfl
    | ⟨1, _⟩ => rfl

/-- The matrix product's right read is the specification's: inner position `k`, column of the output index. -/
private theorem ridx_eq (o : S100000x64.Idx) (k : Fin 64) : ridx_main_v27 o k = Cert.Spec.kCol o k :=
  funext fun a => match a with
    | ⟨0, _⟩ => rfl
    | ⟨1, _⟩ => rfl

/-- A bias reshaped to a one-row matrix, read at (0, column of `o`), is the bias at that column: the two indices have
    the same row-major position, 0 · 64 + column. -/
private theorem rowOf_biasAt (b : FVec Ideal S64 .f32) (o : S100000x64.Idx) (k : S64.Idx)
    (hk : (k 0).val = (o 1).val) : Cert.KernelIdeal.KOps.rowOf b (Cert.Spec.biasAt o) = b k := by
  unfold Cert.KernelIdeal.KOps.rowOf
  refine shapeCast_apply b _ (Cert.Spec.biasAt o) k ?_
  rw [Shape.rowMajor_val_two, Shape.rowMajor_val_one]
  show (k 0).val = 0 * 64 + (o 1).val
  omega

/-- The reference's first bias, laid over the rows, read at `o` is the bias row at (0, column of `o`). -/
private theorem bcast42 (b : FVec Ideal S64 .f32) (o : S100000x64.Idx) :
    val_main_v42 (F := Ideal) b o = Cert.KernelIdeal.KOps.rowOf b (Cert.Spec.biasAt o) := by
  rw [val_main_v42_apply, val_main_v41_apply]
  exact (rowOf_biasAt b o _ rfl).symm

/-- The reference's second bias, laid over the rows, read at `o` is the bias row at (0, column of `o`). -/
private theorem bcast60 (b : FVec Ideal S64 .f32) (o : S100000x64.Idx) :
    val_main_v60 (F := Ideal) b o = Cert.KernelIdeal.KOps.rowOf b (Cert.Spec.biasAt o) := by
  rw [val_main_v60_apply, val_main_v59_apply]
  exact (rowOf_biasAt b o _ rfl).symm

/-- The reference's zero array is zero at every index. -/
private theorem zeros_apply (o : S100000x64.Idx) : val_main_call0_v0 (F := Ideal) o = 0 := by
  rw [val_main_call0_v0_apply, val_main_call0_cst_apply]
  exact Ideal.ofBits_zero_f32

/-- The scaled dense layer is the reference's matrix product, entry by entry, times the row's scale. -/
theorem dense (x : FVec Ideal S100000x64 .f32) (w : FVec Ideal S64x64 .f32) (d : Cert.Spec.SN1.Idx → EReal) :
    Cert.Spec.scaledMatmul x w d = fun o => val_main_v27 (F := Ideal) x w o * d (Cert.Spec.rowCol0 o) := by
  funext o
  rw [Cert.Spec.scaledMatmul_apply, val_main_v27_apply]
  simp only [lidx_eq, ridx_eq]

/-- Bias and positive part, as the reference spells them: add the bias laid over the rows, then the maximum with
    the zero array. -/
theorem relu_bias (a : FVec Ideal S100000x64 .f32) (b : FVec Ideal S64 .f32) :
    Cert.Spec.biasRelu a (Cert.KernelIdeal.KOps.rowOf b)
      = maximumf (addf a (val_main_v42 (F := Ideal) b)) (val_main_call0_v0 (F := Ideal)) := by
  funext o
  show Cert.Spec.biasRelu a (Cert.KernelIdeal.KOps.rowOf b) o
    = FloatOps.maximumf (FloatOps.addf (a o) (val_main_v42 (F := Ideal) b o)) (val_main_call0_v0 (F := Ideal) o)
  rw [Cert.Spec.biasRelu_apply, bcast42, zeros_apply, Ideal.maximumf_def, Ideal.addf_def]

/-- The final bias, as the reference spells it. -/
theorem bias_add (a : FVec Ideal S100000x64 .f32) (b : FVec Ideal S64 .f32) :
    Cert.Spec.biasAdd a (Cert.KernelIdeal.KOps.rowOf b) = addf a (val_main_v60 (F := Ideal) b) := by
  funext o
  show Cert.Spec.biasAdd a (Cert.KernelIdeal.KOps.rowOf b) o = FloatOps.addf (a o) (val_main_v60 (F := Ideal) b o)
  rw [Cert.Spec.biasAdd_apply, bcast60, Ideal.addf_def]

end Cert.RefDense

end
-- ==== Proof.Bridge.lean ====
/-
  The kernel program's result is the reference's, as arrays, when every entry of the edge table is a node id.
  Layer by layer: the scaled dense stage is the reference's matrix product times the row's scale; one aggregation
  step of it is the reference's aggregation with the per-edge product of scales; bias and positive part are the
  reference's; and the same again for the second layer, ending with the final bias.
-/
import proofs.«429814_j67362267070571_3_alg».proof.Proof.KOps
import proofs.«429814_j67362267070571_3_alg».proof.Proof.TakeMask
import proofs.«429814_j67362267070571_3_alg».proof.Proof.Layer
import proofs.«429814_j67362267070571_3_alg».proof.Proof.RefDense
import proofs.«429814_j67362267070571_3_alg».proof.Proof.Spec

noncomputable section

namespace Cert.Bridge

open Cert.KernelIdeal Cert.KernelIdeal.KOps Idealize.ShloMosaic
open Cert.ReferenceIdeal.Read

variable (x : FVec Ideal S100000x64 .f32) (ei : IVec S2x1600000 32) (w1 : FVec Ideal S64x64 .f32) (b1 : FVec Ideal S64 .f32)
  (w2 : FVec Ideal S64x64 .f32) (b2 : FVec Ideal S64 .f32)

/-- The first layer, aggregated. -/
theorem layer1 (hei : ∀ i : S2x1600000.Idx, 0 ≤ (ei i).toInt ∧ (ei i).toInt < 100000) :
    aggK ei (Cert.Spec.scaledMatmul x w1 (dcolOf ei)) = val_main_v40 (F := Ideal) x ei w1 := by
  rw [Cert.RefDense.dense x w1 (dcolOf ei)]
  exact Cert.Layer.agg_scaled ei (fun e => Cert.KernelIdeal.TakeMask.src_in_range ei hei e) (val_main_v27 (F := Ideal) x w1)

/-- Its bias and positive part. -/
theorem relu1 :
    Cert.Spec.biasRelu (val_main_v40 (F := Ideal) x ei w1) (rowOf b1) = val_main_v44 (F := Ideal) x ei w1 b1 :=
  Cert.RefDense.relu_bias (val_main_v40 (F := Ideal) x ei w1) b1

/-- The second layer, aggregated. -/
theorem layer2 (hei : ∀ i : S2x1600000.Idx, 0 ≤ (ei i).toInt ∧ (ei i).toInt < 100000) :
    aggK ei (Cert.Spec.scaledMatmul (val_main_v44 (F := Ideal) x ei w1 b1) w2 (dcolOf ei))
      = val_main_v58 (F := Ideal) x ei w1 b1 w2 := by
  rw [Cert.RefDense.dense (val_main_v44 (F := Ideal) x ei w1 b1) w2 (dcolOf ei)]
  exact Cert.Layer.agg_scaled ei (fun e => Cert.KernelIdeal.TakeMask.src_in_range ei hei e)
    (val_main_v27 (F := Ideal) (val_main_v44 (F := Ideal) x ei w1 b1) w2)

/-- The whole result. -/
theorem result (hei : ∀ i : S2x1600000.Idx, 0 ≤ (ei i).toInt ∧ (ei i).toInt < 100000) :
    Cert.Spec.biasAdd
        (aggK ei (Cert.Spec.scaledMatmul
          (Cert.Spec.biasRelu (aggK ei (Cert.Spec.scaledMatmul x w1 (dcolOf ei))) (rowOf b1)) w2 (dcolOf ei)))
        (rowOf b2)
      = val_main_v61 (F := Ideal) x ei w1 b1 w2 b2 := by
  rw [layer1 x ei w1 hei, relu1 x ei w1 b1, layer2 x ei w1 b1 w2 hei]
  exact Cert.RefDense.bias_add (val_main_v58 (F := Ideal) x ei w1 b1 w2) b2

end Cert.Bridge

end
-- ==== Proof.lean ====
/-
  Two-layer graph convolution: the Pallas program against its jnp reference, over the extended reals.

  Both programs add a self loop to every node, take each node's in-degree d and the factor d^(-1/2), and twice
  run: a dense layer, a gather of rows by source, a scaling, a sum by destination, a bias. The reference scales
  each message by the product of its two endpoints' factors; the kernel program folds the source's factor into the
  dense layer (its first two pallas_calls scale row n of the matrix product by the factor of node n) and
  multiplies the gathered row by the destination's factor only. Row by row the two messages are
  h (s, j) · f s · f t and h (s, j) · (f s · f t), equal by associativity, with no finiteness needed; the sums by
  destination are the same sum of equal terms.

  The kernel program gathers with `jnp.take`, which fills a row with not-a-number where the index is out of
  range, where the reference's indexing clamps; so the claim is stated for edge tables whose entries are node
  ids (0 ≤ id < 100000), under which the fill never happens.

  The modules: `Spec` (the dense stages as functions of an index), `Reg0Value` / `Reg1Value` / `Reg2Value` (each
  pallas_call's output array is its dense stage of the arrays it finds), `KOps` (the host side named), `KRun`
  and `KValue` (the run, and the buffers read boundary by boundary), `PreDecode` and `TakeMask` (node ids, so
  no fill), `RefDense` and `Layer` (the reference's stages are the same functions), `Bridge` (the two results
  are one array).
-/
import proofs.«429814_j67362267070571_3_alg».proof.Defs
import proofs.«429814_j67362267070571_3_alg».proof.Proof.Gen.Kernel
import proofs.«429814_j67362267070571_3_alg».proof.Proof.Gen.Kernel.Skeleton
import proofs.«429814_j67362267070571_3_alg».proof.Proof.Gen.Kernel.Launch
import proofs.«429814_j67362267070571_3_alg».proof.Proof.Gen.Kernel.Points
import proofs.«429814_j67362267070571_3_alg».proof.Proof.Gen.Kernel.Frame
import proofs.«429814_j67362267070571_3_alg».proof.Proof.Gen.KernelIdeal
import proofs.«429814_j67362267070571_3_alg».proof.Proof.Gen.KernelIdeal.Skeleton
import proofs.«429814_j67362267070571_3_alg».proof.Proof.Gen.KernelIdeal.Launch
import proofs.«429814_j67362267070571_3_alg».proof.Proof.Gen.KernelIdeal.Points
import proofs.«429814_j67362267070571_3_alg».proof.Proof.Gen.KernelIdeal.Frame
import proofs.«429814_j67362267070571_3_alg».proof.Proof.Gen.ReferenceIdeal
import proofs.«429814_j67362267070571_3_alg».proof.Proof.Gen.ReferenceIdeal.Run
import proofs.«429814_j67362267070571_3_alg».proof.Proof.Gen.ReferenceIdeal.Read
import proofs.«429814_j67362267070571_3_alg».proof.Proof.Gen.Pre_finite_inputs
import proofs.«429814_j67362267070571_3_alg».proof.Proof.KRun
import proofs.«429814_j67362267070571_3_alg».proof.Proof.KValue
import proofs.«429814_j67362267070571_3_alg».proof.Proof.PreDecode
import proofs.«429814_j67362267070571_3_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments, with an edge table of node ids, both programs end with the same
    array: the kernel program's buffers read to the return give the two-layer formula, and that formula is the
    reference's last stage. -/
theorem algebraic : Cert.algebraic_KernelIdeal_ReferenceIdeal := by
  intro m ρ m' ρ' hpre hagree
  refine ⟨fun c => Cert.KernelIdeal.KValue.outOf m c, ?_, ?_⟩
  · exact (θ_run Cert.KernelIdeal.defs _ _).mono
      (fun r h c => ⟨(h c).1.trans (Cert.KernelIdeal.KValue.out_W8 m ρ c), (h c).2⟩) (Cert.KernelIdeal.Gen.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2]
    exact (Cert.Bridge.result _ _ _ _ _ _ (fun i => Cert.PreDecode.edge_in_range _ _ _ _ _ _ (hpre c) i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
